-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4096 .f32) (main_arg1 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x4096 : Shape := ⟨2, ![8192, 4096]⟩
abbrev S8192 : Shape := ⟨1, ![8192]⟩
abbrev S8192x12288 : Shape := ⟨2, ![8192, 12288]⟩
abbrev S128x4096 : Shape := ⟨2, ![128, 4096]⟩
abbrev S128 : Shape := ⟨1, ![128]⟩
abbrev S128x12288 : Shape := ⟨2, ![128, 12288]⟩
abbrev S128x1 : Shape := ⟨2, ![128, 1]⟩
abbrev S128x4095 : Shape := ⟨2, ![128, 4095]⟩
abbrev S128x8192 : Shape := ⟨2, ![128, 8192]⟩
abbrev S1x128 : Shape := ⟨2, ![1, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S8192x12288, .f32⟩
  | .local _ .vmem, ⟨0, _⟩ => ⟨S128x4096, .f32⟩
  | .local _ .vmem, ⟨1, _⟩ => ⟨S128x4096, .f32⟩
  | .local _ .vmem, ⟨2, _⟩ => ⟨S128, .f32⟩
  | .local _ .vmem, ⟨3, _⟩ => ⟨S128, .f32⟩
  | .local _ .vmem, ⟨4, _⟩ => ⟨S128x12288, .f32⟩
  | .local _ .vmem, ⟨5, _⟩ => ⟨S128x12288, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let c0_17 : Index := 0#32
  let c4096_i32 : BitVec 32 := 4096#32
  let arg0 : BitVec 32 := BitVec.ofNat 32 (i 0).val
  let c128_i32 : BitVec 32 := 128#32
  let v0 : BitVec 32 := Scalar.muli arg0 c128_i32
  let v1 : BitVec 32 := v0
  let v58 : BitVec 32 := Scalar.addi c4096_i32 v1
  let v59 : Index := Scalar.indexCast v58
  ![0, v59.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x4096_S128x4096_0_0 : ∀ a, (![0, 0] : Fin 2 → Nat) a + S128x4096.size a ≤ S128x4096.size a
  h_S128x4096 : 0 < S128x4096.numel
  inb_S128_S128_0 : ∀ a, (![0] : Fin 1 → Nat) a + S128.size a ≤ S128.size a
  h_S128 : 0 < S128.numel
  slices_S128x4096_o0_0_S128x1 : S128x4096.Slices ![0, 0] S128x1
  shapeCasts_S128x1_S128 : S128x1.ShapeCasts S128
  slices_S128x4096_o0_1_S128x4095 : S128x4096.Slices ![0, 1] S128x4095
  reduces_S128x4095_S128 : S128x4095.Reduces [1] S128
  shapeCasts_S128_S128x1 : S128.ShapeCasts S128x1
  broadcasts_S128x1_S128x4095 : S128x1.Broadcasts S128x4095
  concatenates_S128x1_S128x4095_S128x4096_d1 : Shape.Concatenates [S128x1, S128x4095] S128x4096 1
  inb_S128x12288_S128x4096_0_0 : ∀ a, (![0, 0] : Fin 2 → Nat) a + S128x4096.size a ≤ S128x12288.size a
  inb_S128x12288_S128x8192_0_4096 : ∀ a, (![0, 4096] : Fin 2 → Nat) a + S128x8192.size a ≤ S128x12288.size a
  h_S128x8192 : 0 < S128x8192.numel
  iota_S1x128_d1_w32 : S1x128.Iotas .tc 32 [1]
  shapeCasts_S1x128_S128 : S1x128.ShapeCasts S128
  shapeCasts_S128_S1x128 : S128.ShapeCasts S1x128
  broadcasts_S128x1_S128x128 : S128x1.Broadcasts S128x128
  broadcasts_S1x128_S128x128 : S1x128.Broadcasts S128x128
  shapeCasts_S128x1_S128x1 : S128x1.ShapeCasts S128x1
  h_S128x128 : 0 < S128x128.numel
  hrank0 : 0 < grid0.rank
  k0_mult1_dvd : ∀ i : grid0.Coords, 128 ∣ (k0_mult1 i).toNat
  k0_off1_inb : ∀ i : grid0.Coords, ∀ a, (k0_off1 i) a + S128x128.size a ≤ S128x12288.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S8192.size a
  hwx0_1 : ∀ i : grid0.Coords, EltTy.bits .f32 = 32 ∨ (Rect.block (s := S8192) S128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x12288.size a ≤ S8192x12288.size a
  hwx0_2 : ∀ i : grid0.Coords, EltTy.bits .f32 = 32 ∨ (Rect.block (s := S8192x12288) S128x12288.size (cc0_transform_2 i) (hinb0_2 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x12288.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S8192x1 : Shape := ⟨2, ![8192, 1]⟩
abbrev S8192x4095 : Shape := ⟨2, ![8192, 4095]⟩
abbrev S_ : Shape := ⟨0, ![]⟩
abbrev S1 : Shape := ⟨1, ![1]⟩
abbrev S8192x8192 : Shape := ⟨2, ![8192, 8192]⟩
abbrev S8192x12288 : Shape := ⟨2, ![8192, 12288]⟩

abbrev nBuf : Space → Nat
  | .hbm => 65
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S8192x1, .f32⟩
  | .hbm, ⟨3, _⟩ => ⟨S8192, .f32⟩
  | .hbm, ⟨4, _⟩ => ⟨S8192x4095, .f32⟩
  | .hbm, ⟨5, _⟩ => ⟨S8192x4095, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .i1⟩
  | .hbm, ⟨13, _⟩ => ⟨S8192, .i1⟩
  | .hbm, ⟨14, _⟩ => ⟨S_, .f32⟩
  | .hbm, ⟨15, _⟩ => ⟨S8192, .f32⟩
  | .hbm, ⟨16, _⟩ => ⟨S8192, .i1⟩
  | .hbm, ⟨17, _⟩ => ⟨S8192, .i1⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .i1⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192x4096, .f32⟩
  | .hbm, ⟨47, _⟩ => ⟨S8192x4096, .f32⟩
  | .hbm, ⟨48, _⟩ => ⟨S_, .i32⟩
  | .hbm, ⟨49, _⟩ => ⟨S1, .i32⟩
  | .hbm, ⟨50, _⟩ => ⟨S8192x4096, .f32⟩
  | .hbm, ⟨51, _⟩ => ⟨S_, .f32⟩
  | .hbm, ⟨52, _⟩ => ⟨S8192, .f32⟩
  | .hbm, ⟨53, _⟩ => ⟨S8192x8192, .i32⟩
  | .hbm, ⟨54, _⟩ => ⟨S8192x8192, .i32⟩
  | .hbm, ⟨55, _⟩ => ⟨S_, .i32⟩
  | .hbm, ⟨56, _⟩ => ⟨S8192x8192, .i32⟩
  | .hbm, ⟨57, _⟩ => ⟨S8192x8192, .i32⟩
  | .hbm, ⟨58, _⟩ => ⟨S8192x8192, .i1⟩
  | .hbm, ⟨59, _⟩ => ⟨S8192x1, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x12288, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v25 : Ref sig .tc := ⟨.hbm, 36, rfl⟩
abbrev main_cst_6 : Ref sig .tc := ⟨.hbm, 37, rfl⟩
abbrev main_call2_v0 : Ref sig .tc := ⟨.hbm, 38, rfl⟩
abbrev main_call2_v1 : Ref sig .tc := ⟨.hbm, 39, rfl⟩
abbrev main_v26 : Ref sig .tc := ⟨.hbm, 40, rfl⟩
abbrev main_cst_7 : Ref sig .tc := ⟨.hbm, 41, rfl⟩
abbrev main_call3_v0 : Ref sig .tc := ⟨.hbm, 42, rfl⟩
abbrev main_call3_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_v31 : Ref sig .tc := ⟨.hbm, 49, rfl⟩
abbrev main_v32 : Ref sig .tc := ⟨.hbm, 50, rfl⟩
abbrev main_call4_cst : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_c : Ref sig .tc := ⟨.hbm, 55, rfl⟩
abbrev main_call4_v3 : Ref sig .tc := ⟨.hbm, 56, rfl⟩
abbrev main_call4_v4 : Ref sig .tc := ⟨.hbm, 57, rfl⟩
abbrev main_call4_v5 : Ref sig .tc := ⟨.hbm, 58, rfl⟩
abbrev main_call4_v6 : Ref sig .tc := ⟨.hbm, 59, rfl⟩
abbrev main_call4_cst_0 : Ref sig .tc := ⟨.hbm, 60, rfl⟩
abbrev main_call4_call0_v0 : Ref sig .tc := ⟨.hbm, 61, rfl⟩
abbrev main_call4_call0_v1 : Ref sig .tc := ⟨.hbm, 62, rfl⟩
abbrev main_v33 : Ref sig .tc := ⟨.hbm, 63, rfl⟩
abbrev main_v34 : Ref sig .tc := ⟨.hbm, 64, rfl⟩

abbrev nD : Nat := 1
abbrev τ : Topo := Topo.v7x

variable {F : FTy → Type} [FloatOps F]

class Facts₀ : Prop where
  slices_S8192x4096_S8192x1_0_0 : S8192x4096.Slices ![0, 0] S8192x1
  shapeCasts_S8192x1_S8192 : S8192x1.ShapeCasts S8192
  slices_S8192x4096_S8192x4095_0_1 : S8192x4096.Slices ![0, 1] S8192x4095
  reducesTo_S8192x4095_S8192_d1 : S8192x4095.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S1 : S_.BroadcastsInDim S1 (![] : Fin 0 → Fin S1.rank)
  pads_S8192_S8192_000 : S8192.Pads (![0] : Fin 1 → Nat) ![0] ![0] S8192
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  concatenates_S8192x4096_S8192x8192_S8192x12288_d1 : Shape.Concatenates [S8192x4096, S8192x8192] S8192x12288 1
  scatter_S8192x4096_S1_S8192_0_1_1_0_wf : ScatterDims.WF S8192x4096 S1 S8192 [0] [1] [1] 0

variable [Facts₀]

def scatter_S8192x4096_S1_S8192_0_1_1_0 : ScatterDims S8192x4096 S1 S8192 where
  updateWindowDims := [0]
  insertedWindowDims := [1]
  scatterDimsToOperandDims := [1]
  indexVectorDim := 0
  wf := scatter_S8192x4096_S1_S8192_0_1_1_0_wf

class Facts : Prop extends Facts₀ where

variable [Facts]
-- ==== Proof.K.Body.lean ====
/-
  The kernel body, the pipeline's proof data and the run of @main, for every float instance.

  At grid point `t` the body reads a block of 128 rows of the matrix (`x0`) and the matching 128 entries of the
  vector (`x1`) and fills its 128 × 12288 output block by three stores: the relaxed rows into columns
  0 … 4095, zeros into columns 4096 … 12287, and then the 128 × 128 diagonal tile of the fresh coefficients over
  the zeros, at columns 4096 + 128·t … 4096 + 128·t + 127. The first two stores tile the block, so after the
  body the block is a function of `x0`, `x1` and the point alone: `OUT`, the three stores read back in order
  (the later store wins where two overlap).
-/
import proofs.«123481_j43525198577802_1_alg».proof.Proof.Gen.Kernel.Frame
import proofs.«123481_j43525198577802_1_alg».proof.Proof.Gen.Kernel.Skeleton
import Idealize.ShloMosaic.Lib.Pipeline.Value

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

abbrev 𝒱₀ : Variants := Variants.none

/-! ## What the body leaves in its output block -/

/-- The body's three stores at grid coordinates `i`, the last one first: the diagonal tile of the fresh
    coefficients at column offset `4096 + 128·i`, the zeros over columns 4096 … 12287, the relaxed rows over
    columns 0 … 4095 — each payload a function of the input blocks `x0` (rows) and `x1` (slope parameters). -/
def stores (i : grid0.Coords) (x0 : Vec F S128x4096 .f32) (x1 : Vec F S128 .f32) :
    List (View.Piece (Elt F) S128x12288 .f32) :=
  [⟨Rect.unit (s := S128x12288) (k0_off1 i) S128x128.size (k0_off1_inb i), k0_pay2 (k0_pay10 x0 x1)⟩,
   ⟨Rect.unit (s := S128x12288) ![0, 4096] S128x8192.size inb_S128x12288_S128x8192_0_4096, k0_pay1⟩,
   ⟨Rect.unit (s := S128x12288) ![0, 0] S128x4096.size inb_S128x12288_S128x4096_0_0, k0_pay11 x0 x1⟩]

/-- The output block after the body: the three stores read back. -/
def OUT (i : grid0.Coords) (x0 : Vec F S128x4096 .f32) (x1 : Vec F S128 .f32) : Vec F S128x12288 .f32 :=
  View.canon (stores i x0 x1)

/-- The two literal stores (columns 0 … 4095 and 4096 … 12287) tile the block, so the three stores cover it,
    wherever the diagonal tile lands. -/
theorem cover_three (i : grid0.Coords) (w1 : S128x128.Idx → Elt F .f32) (w2 : S128x8192.Idx → Elt F .f32)
    (w3 : S128x4096.Idx → Elt F .f32) (y : S128x12288.Idx) :
    ∃ p ∈ ([⟨Rect.unit (s := S128x12288) (k0_off1 i) S128x128.size (k0_off1_inb i), w1⟩,
        ⟨Rect.unit (s := S128x12288) ![0, 4096] S128x8192.size inb_S128x12288_S128x8192_0_4096, w2⟩,
        ⟨Rect.unit (s := S128x12288) ![0, 0] S128x4096.size inb_S128x12288_S128x4096_0_0, w3⟩] :
          List (View.Piece (Elt F) S128x12288 .f32)), y ∈ p.1.set := by
  have h0 : (y 0).val < 128 := (y 0).isLt
  have h1 : (y 1).val < 12288 := (y 1).isLt
  by_cases h : (y 1).val < 4096
  · refine ⟨⟨Rect.unit (s := S128x12288) ![0, 0] S128x4096.size inb_S128x12288_S128x4096_0_0, w3⟩,
      List.mem_cons_of_mem _ (List.mem_cons_of_mem _ (List.mem_singleton_self _)), ?_⟩
    show y ∈ (Rect.unit (s := S128x12288) ![0, 0] S128x4096.size inb_S128x12288_S128x4096_0_0).set
    rw [Rect.mem_set_unit]
    intro a
    match a with
    | ⟨0, _⟩ => exact ⟨Nat.zero_le _, by show (y 0).val < 0 + 128; omega⟩
    | ⟨1, _⟩ => exact ⟨Nat.zero_le _, by show (y 1).val < 0 + 4096; omega⟩
  · refine ⟨⟨Rect.unit (s := S128x12288) ![0, 4096] S128x8192.size inb_S128x12288_S128x8192_0_4096, w2⟩,
      List.mem_cons_of_mem _ List.mem_cons_self, ?_⟩
    show y ∈ (Rect.unit (s := S128x12288) ![0, 4096] S128x8192.size inb_S128x12288_S128x8192_0_4096).set
    rw [Rect.mem_set_unit]
    intro a
    match a with
    | ⟨0, _⟩ => exact ⟨Nat.zero_le _, by show (y 0).val < 0 + 128; omega⟩
    | ⟨1, _⟩ => exact ⟨by show 4096 ≤ (y 1).val; omega, by show (y 1).val < 4096 + 8192; omega⟩

theorem cover_stores (i : grid0.Coords) (x0 : Vec F S128x4096 .f32) (x1 : Vec F S128 .f32) (y : S128x12288.Idx) :
    ∃ p ∈ stores i x0 x1, y ∈ p.1.set := cover_three i _ _ _ y

/-- The whole-buffer rectangles' offsets are zero. -/
theorem off2 : (![0, 0] : Fin 2 → ℕ) = fun _ => 0 := funext fun a => by fin_cases a <;> rfl
theorem off1 : (![0] : Fin 1 → ℕ) = fun _ => 0 := funext fun a => by fin_cases a; rfl

/-! ## The body's triple -/

set_option maxHeartbeats 1000000 in
/-- The kernel body at grid coordinates `i` on whole staging memrefs, the inputs' at contents `x0`, `x1`, the
    output's at anything, runs to the continuation holding the inputs' as they were and the output's at
    `OUT i x0 x1`. -/
theorem sound_kernel (c : Dev nD) (i : grid0.Coords) (arg1 : Memref sig .tc .vmem S128x4096 .f32) (harg1 : arg1.IsWhole) (arg2 : Memref sig .tc .vmem S128 .f32) (harg2 : arg2.IsWhole) (arg3 : Memref sig .tc .vmem S128x12288 .f32) (harg3 : arg3.IsWhole)
    (x0 : Vec F S128x4096 .f32) (x1 : Vec F S128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (OUT i x0 x1)) -∗ K ⟨⟩))
      ⊢ wp frame (wpE (defs₀ (F := F)) 𝒱₀ c none) Set.univ (cc0__relu_zonotope_kernel i arg1 harg1 arg2 harg2 arg3 harg3) K := by
  simp only [cc0__relu_zonotope_kernel_eq_skeleton]; unfold cc0__relu_zonotope_kernel_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_three i _ _ _)]
  unfold OUT stores sound_kernel.sl.r sound_kernel.sl.r_1
  simp only [View.readAt_eq_ld, View.ld_unit_zero (S := S128x4096) off2, View.ld_unit_zero (S := S128) off1]

/-! ## The pipeline's proof data -/

variable (m : (ℓ : Loc nD τ sig) → Buf (Elt F) ℓ) (ρ : Dev nD → PrngReg)

/-- The proof data of the one pipeline on core `c`: the arrays as the region finds them; after the body at point
    `t` each input's buffer at its block and the output's at `OUT` of the point's coordinates and input blocks;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => OUT (grid0.coords t) (iblk m c 0 t) (iblk m c 1 t)
  Φ _ := ΦA spec0 c
  q _ := fullShare
  owed _ := 0

theorem A_eq (c : Dev nD) (w : Fin cfg0.W) : (dats m 0 c).A w = V m c (Pipeline.arrRef spec0 w) := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = OUT (grid0.coords t) (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant, the
    core's `owes` and the generator register pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- At the compiled mesh, from any memory with zero counters: every weakly fair execution of @main on the
    TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.K
end
-- ==== Proof.KI.Body.lean ====
/-
  The kernel body, the pipeline's proof data and the run of @main, for every float instance.

  At grid point `t` the body reads a block of 128 rows of the matrix (`x0`) and the matching 128 entries of the
  vector (`x1`) and fills its 128 × 12288 output block by three stores: the relaxed rows into columns
  0 … 4095, zeros into columns 4096 … 12287, and then the 128 × 128 diagonal tile of the fresh coefficients over
  the zeros, at columns 4096 + 128·t … 4096 + 128·t + 127. The first two stores tile the block, so after the
  body the block is a function of `x0`, `x1` and the point alone: `OUT`, the three stores read back in order
  (the later store wins where two overlap).
-/
import proofs.«123481_j43525198577802_1_alg».proof.Proof.Gen.KernelIdeal.Frame
import proofs.«123481_j43525198577802_1_alg».proof.Proof.Gen.KernelIdeal.Skeleton
import Idealize.ShloMosaic.Lib.Pipeline.Value

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

abbrev 𝒱₀ : Variants := Variants.none

/-! ## What the body leaves in its output block -/

/-- The body's three stores at grid coordinates `i`, the last one first: the diagonal tile of the fresh
    coefficients at column offset `4096 + 128·i`, the zeros over columns 4096 … 12287, the relaxed rows over
    columns 0 … 4095 — each payload a function of the input blocks `x0` (rows) and `x1` (slope parameters). -/
def stores (i : grid0.Coords) (x0 : Vec F S128x4096 .f32) (x1 : Vec F S128 .f32) :
    List (View.Piece (Elt F) S128x12288 .f32) :=
  [⟨Rect.unit (s := S128x12288) (k0_off1 i) S128x128.size (k0_off1_inb i), k0_pay2 (k0_pay10 x0 x1)⟩,
   ⟨Rect.unit (s := S128x12288) ![0, 4096] S128x8192.size inb_S128x12288_S128x8192_0_4096, k0_pay1⟩,
   ⟨Rect.unit (s := S128x12288) ![0, 0] S128x4096.size inb_S128x12288_S128x4096_0_0, k0_pay11 x0 x1⟩]

/-- The output block after the body: the three stores read back. -/
def OUT (i : grid0.Coords) (x0 : Vec F S128x4096 .f32) (x1 : Vec F S128 .f32) : Vec F S128x12288 .f32 :=
  View.canon (stores i x0 x1)

/-- The two literal stores (columns 0 … 4095 and 4096 … 12287) tile the block, so the three stores cover it,
    wherever the diagonal tile lands. -/
theorem cover_three (i : grid0.Coords) (w1 : S128x128.Idx → Elt F .f32) (w2 : S128x8192.Idx → Elt F .f32)
    (w3 : S128x4096.Idx → Elt F .f32) (y : S128x12288.Idx) :
    ∃ p ∈ ([⟨Rect.unit (s := S128x12288) (k0_off1 i) S128x128.size (k0_off1_inb i), w1⟩,
        ⟨Rect.unit (s := S128x12288) ![0, 4096] S128x8192.size inb_S128x12288_S128x8192_0_4096, w2⟩,
        ⟨Rect.unit (s := S128x12288) ![0, 0] S128x4096.size inb_S128x12288_S128x4096_0_0, w3⟩] :
          List (View.Piece (Elt F) S128x12288 .f32)), y ∈ p.1.set := by
  have h0 : (y 0).val < 128 := (y 0).isLt
  have h1 : (y 1).val < 12288 := (y 1).isLt
  by_cases h : (y 1).val < 4096
  · refine ⟨⟨Rect.unit (s := S128x12288) ![0, 0] S128x4096.size inb_S128x12288_S128x4096_0_0, w3⟩,
      List.mem_cons_of_mem _ (List.mem_cons_of_mem _ (List.mem_singleton_self _)), ?_⟩
    show y ∈ (Rect.unit (s := S128x12288) ![0, 0] S128x4096.size inb_S128x12288_S128x4096_0_0).set
    rw [Rect.mem_set_unit]
    intro a
    match a with
    | ⟨0, _⟩ => exact ⟨Nat.zero_le _, by show (y 0).val < 0 + 128; omega⟩
    | ⟨1, _⟩ => exact ⟨Nat.zero_le _, by show (y 1).val < 0 + 4096; omega⟩
  · refine ⟨⟨Rect.unit (s := S128x12288) ![0, 4096] S128x8192.size inb_S128x12288_S128x8192_0_4096, w2⟩,
      List.mem_cons_of_mem _ List.mem_cons_self, ?_⟩
    show y ∈ (Rect.unit (s := S128x12288) ![0, 4096] S128x8192.size inb_S128x12288_S128x8192_0_4096).set
    rw [Rect.mem_set_unit]
    intro a
    match a with
    | ⟨0, _⟩ => exact ⟨Nat.zero_le _, by show (y 0).val < 0 + 128; omega⟩
    | ⟨1, _⟩ => exact ⟨by show 4096 ≤ (y 1).val; omega, by show (y 1).val < 4096 + 8192; omega⟩

theorem cover_stores (i : grid0.Coords) (x0 : Vec F S128x4096 .f32) (x1 : Vec F S128 .f32) (y : S128x12288.Idx) :
    ∃ p ∈ stores i x0 x1, y ∈ p.1.set := cover_three i _ _ _ y

/-- The whole-buffer rectangles' offsets are zero. -/
theorem off2 : (![0, 0] : Fin 2 → ℕ) = fun _ => 0 := funext fun a => by fin_cases a <;> rfl
theorem off1 : (![0] : Fin 1 → ℕ) = fun _ => 0 := funext fun a => by fin_cases a; rfl

/-! ## The body's triple -/

set_option maxHeartbeats 1000000 in
/-- The kernel body at grid coordinates `i` on whole staging memrefs, the inputs' at contents `x0`, `x1`, the
    output's at anything, runs to the continuation holding the inputs' as they were and the output's at
    `OUT i x0 x1`. -/
theorem sound_kernel (c : Dev nD) (i : grid0.Coords) (arg1 : Memref sig .tc .vmem S128x4096 .f32) (harg1 : arg1.IsWhole) (arg2 : Memref sig .tc .vmem S128 .f32) (harg2 : arg2.IsWhole) (arg3 : Memref sig .tc .vmem S128x12288 .f32) (harg3 : arg3.IsWhole)
    (x0 : Vec F S128x4096 .f32) (x1 : Vec F S128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (OUT i x0 x1)) -∗ K ⟨⟩))
      ⊢ wp frame (wpE (defs₀ (F := F)) 𝒱₀ c none) Set.univ (cc0__relu_zonotope_kernel i arg1 harg1 arg2 harg2 arg3 harg3) K := by
  simp only [cc0__relu_zonotope_kernel_eq_skeleton]; unfold cc0__relu_zonotope_kernel_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_three i _ _ _)]
  unfold OUT stores sound_kernel.sl.r sound_kernel.sl.r_1
  simp only [View.readAt_eq_ld, View.ld_unit_zero (S := S128x4096) off2, View.ld_unit_zero (S := S128) off1]

/-! ## The pipeline's proof data -/

variable (m : (ℓ : Loc nD τ sig) → Buf (Elt F) ℓ) (ρ : Dev nD → PrngReg)

/-- The proof data of the one pipeline on core `c`: the arrays as the region finds them; after the body at point
    `t` each input's buffer at its block and the output's at `OUT` of the point's coordinates and input blocks;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => OUT (grid0.coords t) (iblk m c 0 t) (iblk m c 1 t)
  Φ _ := ΦA spec0 c
  q _ := fullShare
  owed _ := 0

theorem A_eq (c : Dev nD) (w : Fin cfg0.W) : (dats m 0 c).A w = V m c (Pipeline.arrRef spec0 w) := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = OUT (grid0.coords t) (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant, the
    core's `owes` and the generator register pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- At the compiled mesh, from any memory with zero counters: every weakly fair execution of @main on the
    TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KI
end
-- ==== Proof.Spec.lean ====
/-
  The function both programs compute, stated index by index on the extended reals.

  Input: a matrix `x` of 8192 rows and 4096 columns and a vector `lam` of 8192 entries. Row `i` of `x` is a
  zonotope's affine form: column 0 is its centre `c`, the other 4095 columns are error coefficients. The row's
  radius is `r = ∑ₖ |x i (k+1)|`, its interval is `[c - r, c + r]`. A row is DEAD when its upper end is at most
  zero, CROSSING when it is not dead and its lower end is below zero, and otherwise stable. The ReLU relaxation
  scales a row by `0` (dead), `lam i` (crossing) or `1` (stable), and a crossing row receives a fresh error
  coefficient `newEps`, which is also added to its centre.

  Output: a matrix of 8192 rows and 12288 columns. Columns 0 … 4095 hold the relaxed row (column 0 the scaled
  centre plus `newEps`, column `j ≥ 1` the scaled coefficient); columns 4096 … 12287 hold the diagonal matrix
  of the fresh coefficients: entry `(i, 4096 + k)` is `newEps i` when `k = i` and zero otherwise.

  Comparisons are the extended reals' (as one-bit words, the form both programs' selects read them in); the
  literals are kept as the words the programs print.
-/
import Idealize.ShloMosaic.PureOps.Ideal
import Idealize.ShloMosaic.Lib.ValueIdx

noncomputable section

namespace Cert.Spec

open Idealize.ShloMosaic Idealize.ShloMosaic.ValueIdx

/-- The literals of both programs: 0, 1 and 1/2 as f32 words read on the extended reals. -/
abbrev zero : EReal := Ideal.ofBits .f32 0x00000000#32
abbrev one : EReal := Ideal.ofBits .f32 0x3F800000#32
abbrev half : EReal := Ideal.ofBits .f32 0x3F000000#32

/-- A row's interval from its centre `c` and radius `r`. -/
def lo (c r : EReal) : EReal := c - r
def hi (c r : EReal) : EReal := c + r

/-- The row is dead: its upper end is at most zero. -/
def dead (c r : EReal) : BitVec 1 := Ideal.cmp .ole (hi c r) zero

/-- The row is crossing: not dead, and its lower end is below zero. -/
def crossing (c r : EReal) : BitVec 1 := (dead c r ^^^ 1#1) &&& Ideal.cmp .olt (lo c r) zero

/-- The fresh error coefficient of a row with centre `c`, radius `r` and slope parameter `l`: zero unless the
    row is crossing; then `(0 - lo) · l · 1/2` when `l` is at least the threshold `hi / (hi - 1)`, else
    `hi · (1 - l)`. -/
def newEps (c r l : EReal) : EReal :=
  Scalar.select (crossing c r)
    (Scalar.select (Ideal.cmp .oge l (Ideal.div (hi c r) (hi c r - one)))
      ((zero - lo c r) * l * half) (hi c r * (one - l)))
    zero

/-- The factor the row is scaled by: `0` dead, `l` crossing, `1` stable. -/
def scale (c r l : EReal) : EReal :=
  Scalar.select (dead c r) zero (Scalar.select (crossing c r) l one)

abbrev SIn : Shape := ⟨2, ![8192, 4096]⟩
abbrev SLam : Shape := ⟨1, ![8192]⟩
abbrev SOut : Shape := ⟨2, ![8192, 12288]⟩

/-- Row `i`'s centre: column 0. -/
def ctr (x : SIn.Idx → EReal) (i : Fin 8192) : EReal := x (ix2 i (0 : Fin 4096))

/-- Row `i`'s radius: the sum of the absolute values of columns 1 … 4095. -/
def rad (x : SIn.Idx → EReal) (i : Fin 8192) : EReal :=
  ∑ k : Fin 4095, max (x (ix2 i (⟨1 + k.val, by omega⟩ : Fin 4096))) (-(x (ix2 i (⟨1 + k.val, by omega⟩ : Fin 4096))))

/-- Row `i`'s fresh coefficient and scale. -/
def eps (x : SIn.Idx → EReal) (lam : SLam.Idx → EReal) (i : Fin 8192) : EReal :=
  newEps (ctr x i) (rad x i) (lam (ix1 i))
def scl (x : SIn.Idx → EReal) (lam : SLam.Idx → EReal) (i : Fin 8192) : EReal :=
  scale (ctr x i) (rad x i) (lam (ix1 i))

/-- The result at row `i`, column `j`. -/
def out (x : SIn.Idx → EReal) (lam : SLam.Idx → EReal) (i : Fin 8192) (j : Fin 12288) : EReal :=
  if h0 : j.val = 0 then ctr x i * scl x lam i + eps x lam i
  else if h1 : j.val < 4096 then x (ix2 i (⟨j.val, h1⟩ : Fin 4096)) * scl x lam i
  else if j.val - 4096 = i.val then eps x lam i else zero

/-- The whole result array. -/
def G (x : SIn.Idx → EReal) (lam : SLam.Idx → EReal) : SOut.Idx → EReal :=
  fun j => out x lam (j 0) (j 1)

end Cert.Spec

end
-- ==== Proof.KI.Payload.lean ====
/-
  The kernel body's four stored values read at an index, on the extended reals, as functions of the body's two
  input blocks: `x0`, 128 rows of the matrix, and `x1`, the matching 128 slope parameters.

  Row `p` of the block has centre `x0 p 0` and radius `∑ₖ |x0 p (1+k)|`; from these and `x1 p` the body computes the
  row's fresh coefficient and scale (`Cert.Spec.newEps`, `Cert.Spec.scale`), the relaxed row (column 0 the scaled
  centre plus the coefficient, the other columns scaled), the 128 × 128 diagonal tile of the coefficients, and a
  block of zeros.
-/
import proofs.«123481_j43525198577802_1_alg».proof.Proof.Gen.KernelIdeal.Skeleton
import proofs.«123481_j43525198577802_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Proof.KI

open Cert.KernelIdeal Cert.KernelIdeal.Gen
open Idealize.ShloMosaic Idealize.ShloMosaic.ValueIdx

/-- Row `p`'s centre in the block: column 0. -/
def bctr (x0 : FVec Ideal S128x4096 .f32) (p : Fin 128) : EReal := x0 (ix2 p (0 : Fin 4096))

/-- Row `p`'s radius in the block: the sum of the absolute values of columns 1 … 4095. -/
def brad (x0 : FVec Ideal S128x4096 .f32) (p : Fin 128) : EReal :=
  ∑ k : Fin 4095, max (x0 (ix2 p (⟨1 + k.val, by omega⟩ : Fin 4096))) (-(x0 (ix2 p (⟨1 + k.val, by omega⟩ : Fin 4096))))

/-- Row `p`'s fresh coefficient and scale. -/
def beps (x0 : FVec Ideal S128x4096 .f32) (x1 : FVec Ideal S128 .f32) (p : Fin 128) : EReal :=
  Cert.Spec.newEps (bctr x0 p) (brad x0 p) (x1 (ix1 p))
def bscl (x0 : FVec Ideal S128x4096 .f32) (x1 : FVec Ideal S128 .f32) (p : Fin 128) : EReal :=
  Cert.Spec.scale (bctr x0 p) (brad x0 p) (x1 (ix1 p))

/-! ## Column casts and broadcasts read at an index -/

section RowOps
variable {α : Type}

/-- A column `[a, 1]` cast to the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end RowOps

/-- The centres (`%5`): column 0 of the block. -/
theorem pay3_apply (x0 : FVec Ideal S128x4096 .f32) (p : Fin 128) :
    k0_pay3 (F := Ideal) x0 (ix1 p) = bctr x0 p := by
  unfold k0_pay3 bctr
  refine (shapeCast_a1_a_apply _ _ p).trans ?_
  exact slice2_axis1_apply 0 x0 _ p (0 : Fin 1) (0 : Fin 4096) rfl

/-- The error coefficients (`%6`): columns 1 … 4095 of the block. -/
theorem pay4_apply (x0 : FVec Ideal S128x4096 .f32) (p : Fin 128) (k : Fin 4095) :
    k0_pay4 (F := Ideal) x0 (ix2 p k) = x0 (ix2 p (⟨1 + k.val, by omega⟩ : Fin 4096)) := by
  unfold k0_pay4
  exact slice2_axis1_apply 1 x0 _ p k _ rfl

/-! ## The row quantities -/

/-- The source index over row `p` with coordinate `k` on the summed axis is `(p, k)`. -/
theorem lift_row (h : S128x4095.Reduces [1] S128) (p : Fin 128) (k : Fin 4095) :
    h.lift (ix1 p) k = ix2 p k := by
  funext c
  match c with
  | ⟨0, _⟩ => exact Fin.ext rfl
  | ⟨1, _⟩ => exact Fin.ext rfl

/-- The radii (`%8`): the sum over columns 1 … 4095 of the absolute values. -/
theorem pay5_apply (x0 : FVec Ideal S128x4096 .f32) (p : Fin 128) :
    k0_pay5 (F := Ideal) x0 (ix1 p) = brad x0 p := by
  unfold k0_pay5 brad
  refine (Ideal.multiReduction_add_single (absf (k0_pay4 (F := Ideal) x0)) 0x00000000#32 _ (.inl rfl) rfl (ix1 p)).trans ?_
  show ∑ k : Fin 4095, _ = _
  refine Finset.sum_congr rfl fun k _ => ?_
  rw [lift_row]
  show FloatOps.absf (k0_pay4 (F := Ideal) x0 (ix2 p k)) = _
  rw [Ideal.absf_def, pay4_apply]

/-- The lower ends (`%9`). -/
theorem pay6_apply (x0 : FVec Ideal S128x4096 .f32) (p : Fin 128) :
    k0_pay6 (F := Ideal) x0 (ix1 p) = Cert.Spec.lo (bctr x0 p) (brad x0 p) := by
  unfold k0_pay6 Cert.Spec.lo
  rw [subf_apply, pay3_apply, pay5_apply]

/-- The upper ends (`%10`). -/
theorem pay7_apply (x0 : FVec Ideal S128x4096 .f32) (p : Fin 128) :
    k0_pay7 (F := Ideal) x0 (ix1 p) = Cert.Spec.hi (bctr x0 p) (brad x0 p) := by
  unfold k0_pay7 Cert.Spec.hi
  rw [addf_apply, pay3_apply, pay5_apply]

/-- The dead rows (`%12`). -/
theorem pay8_apply (x0 : FVec Ideal S128x4096 .f32) (p : Fin 128) :
    k0_pay8 (F := Ideal) x0 (ix1 p) = Cert.Spec.dead (bctr x0 p) (brad x0 p) := by
  unfold k0_pay8 Cert.Spec.dead
  rw [cmpf_apply, pay7_apply, broadcast_apply]
  rfl

/-- The crossing rows (`%16`). -/
theorem pay9_apply (x0 : FVec Ideal S128x4096 .f32) (p : Fin 128) :
    k0_pay9 (F := Ideal) x0 (ix1 p) = Cert.Spec.crossing (bctr x0 p) (brad x0 p) := by
  unfold k0_pay9 Cert.Spec.crossing
  show IntOp.andi (IntOp.xori (k0_pay8 (F := Ideal) x0 (ix1 p)) 1#1)
      (FloatOps.cmpf .olt (k0_pay6 (F := Ideal) x0 (ix1 p)) (Scalar.ofBits .f32 0x00000000#32)) = _
  rw [pay8_apply, pay6_apply]
  rfl

/-! ## The four stored values -/

/-- The fresh coefficients (`%31`), row by row. -/
theorem pay10_apply (x0 : FVec Ideal S128x4096 .f32) (x1 : FVec Ideal S128 .f32) (p : Fin 128) :
    k0_pay10 (F := Ideal) x0 x1 (ix1 p) = beps x0 x1 p := by
  unfold k0_pay10 beps Cert.Spec.newEps
  simp only [select_apply, cmpf_apply, divf_apply, subf_apply, mulf_apply, broadcast_apply, pay9_apply, pay7_apply,
    pay6_apply]
  rfl

/-- The scales (`%35`), row by row: `0` dead, the slope parameter crossing, `1` stable. -/
theorem scl_vec_apply (x0 : FVec Ideal S128x4096 .f32) (x1 : FVec Ideal S128 .f32) (p : Fin 128) :
    select (k0_pay8 (F := Ideal) x0) (broadcast S128 (Scalar.ofBits (F := Ideal) .f32 0x00000000#32))
      (select (k0_pay9 (F := Ideal) x0) x1 (broadcast S128 (Scalar.ofBits (F := Ideal) .f32 0x3F800000#32))) (ix1 p)
      = bscl x0 x1 p := by
  unfold bscl Cert.Spec.scale
  rw [select_apply, select_apply, pay8_apply, pay9_apply]
  rfl

/-- The relaxed rows (`%42`): column 0 the scaled centre plus the coefficient, column `q ≥ 1` the scaled entry. -/
theorem pay11_apply (x0 : FVec Ideal S128x4096 .f32) (x1 : FVec Ideal S128 .f32) (p : Fin 128) (q : Fin 4096) :
    k0_pay11 (F := Ideal) x0 x1 (ix2 p q)
      = if q.val = 0 then bctr x0 p * bscl x0 x1 p + beps x0 x1 p else x0 (ix2 p q) * bscl x0 x1 p := by
  unfold k0_pay11
  by_cases hq : q.val = 0
  · rw [if_pos hq]
    refine (concatenate_pair_apply_left (t := S128x4096) (s₁ := S128x1) (s₂ := S128x4095) 1 _ _ _ (ix2 p q) rfl (ix2 p (0 : Fin 1)) (fun b => ?_)).trans ?_
    · match b with
      | ⟨0, _⟩ => rfl
      | ⟨1, _⟩ => exact hq.symm
    · rw [shapeCast_a_a1_apply, addf_apply, mulf_apply, pay3_apply, pay10_apply, scl_vec_apply]
  · rw [if_neg hq]
    refine (concatenate_pair_apply_right (t := S128x4096) (s₁ := S128x1) (s₂ := S128x4095) 1 _ _ _ (ix2 p q) rfl rfl
      (ix2 p (⟨q.val - 1, by have := q.isLt; omega⟩ : Fin 4095)) (fun b hb => ?_) ?_).trans ?_
    · match b with
      | ⟨0, _⟩ => rfl
      | ⟨1, _⟩ => exact absurd rfl hb
    · show q.val - 1 + 1 = q.val
      omega
    · rw [mulf_apply, pay4_apply, broadcastTo_a1_ab_apply, shapeCast_a_a1_apply, scl_vec_apply]
      have hq' : (⟨1 + (q.val - 1), by have := q.isLt; omega⟩ : Fin 4096) = q := Fin.ext (by show 1 + (q.val - 1) = q.val; omega)
      rw [hq']

/-- Lane `i` of the lane counter (`%47`) is the word of `i`. -/
theorem lane_apply (h0 : S1x128.Iotas .tc 32 [1]) (h1 : S1x128.ShapeCasts S128) (i : Fin 128) :
    shapeCast S128 (iota .tc S1x128 32 [1] h0) h1 (ix1 i) = BitVec.ofNat 32 i.val := by
  rw [shapeCast_1a_a_apply, iota_single_apply]

/-- A select on the equality of the words of two row numbers is the `if` on the row numbers. -/
theorem select_diag {α : Type} (p q : Fin 128) (A B : α) :
    Scalar.select (IntOp.cmpi .eq (BitVec.ofNat 32 p.val) (BitVec.ofNat 32 q.val)) A B = if p = q then A else B := by
  by_cases h : p = q
  · subst h
    rw [if_pos rfl]
    unfold IntOp.cmpi Scalar.select
    simp
  · rw [if_neg h]
    have hne : (BitVec.ofNat 32 p.val == BitVec.ofNat 32 q.val) = false := by
      rw [beq_eq_false_iff_ne]
      intro he
      have h2 := congrArg BitVec.toNat he
      simp only [BitVec.toNat_ofNat] at h2
      have hp := p.isLt
      have hq := q.isLt
      exact h (Fin.ext (by omega))
    unfold IntOp.cmpi Scalar.select
    simp [hne]

/-- The diagonal tile (`%57`) of a vector `v` of 128 entries: `v p` on the diagonal, zero off it. -/
theorem pay2_apply (v : FVec Ideal S128 .f32) (p q : Fin 128) :
    k0_pay2 (F := Ideal) v (ix2 p q) = if p = q then v (ix1 p) else Cert.Spec.zero := by
  unfold k0_pay2
  rw [select_apply, broadcast_apply]
  show Scalar.select (IntOp.cmpi .eq (broadcastTo S128x128 (shapeCast S128x1 _ _) _ (ix2 p q))
      (broadcastTo S128x128 (shapeCast S1x128 _ _) _ (ix2 p q))) _ _ = _
  rw [broadcastTo_a1_ab_apply, shapeCast_a_a1_apply, broadcastTo_1b_ab_apply, shapeCast_a_1a_apply, lane_apply, lane_apply,
    broadcastTo_a1_ab_apply, shapeCast_self, shapeCast_a_a1_apply, select_diag]
  rfl

/-- The zero block (`%44`). -/
theorem pay1_apply (y : S128x8192.Idx) : k0_pay1 (F := Ideal) y = Cert.Spec.zero := by
  unfold k0_pay1
  rfl

end Cert.Proof.KI

end
-- ==== Proof.KI.Block.lean ====
/-
  The kernel's output block after the body at grid coordinates `i`, on the extended reals, as ONE function of the
  block index: the three stores — relaxed rows into columns 0 … 4095, zeros into columns 4096 … 12287, then the
  diagonal tile of the fresh coefficients over the zeros at column offset 4096 + 128·i — read back, the later
  store winning where two overlap. At row `p`, column `q`: the scaled centre plus the coefficient (`q = 0`), the scaled
  entry (`1 ≤ q < 4096`), and in the right part the coefficient where `q - 4096 = 128·i + p` (the diagonal of the
  whole 8192 × 8192 matrix crossing this block) and zero elsewhere.
-/
import proofs.«123481_j43525198577802_1_alg».proof.Proof.KI.Body
import proofs.«123481_j43525198577802_1_alg».proof.Proof.KI.Payload

set_option maxRecDepth 16384

noncomputable section

namespace Cert.Proof.KI

open Cert.KernelIdeal Cert.KernelIdeal.Gen
open Idealize.ShloMosaic Idealize.ShloMosaic.ValueIdx

/-- The block as one function of its index. -/
def blockG (i : grid0.Coords) (x0 : FVec Ideal S128x4096 .f32) (x1 : FVec Ideal S128 .f32) : S128x12288.Idx → EReal :=
  fun y =>
    if h0 : (y 1).val = 0 then bctr x0 (y 0) * bscl x0 x1 (y 0) + beps x0 x1 (y 0)
    else if h1 : (y 1).val < 4096 then x0 (ix2 (y 0) (⟨(y 1).val, h1⟩ : Fin 4096)) * bscl x0 x1 (y 0)
    else if (y 1).val - 4096 = 128 * (i 0).val + (y 0).val then beps x0 x1 (y 0) else Cert.Spec.zero

/-- The diagonal tile's column offset: 4096 + 128·i (no wrap: `i < 64`). -/
theorem off1_eq (i : grid0.Coords) : k0_off1 i = ![0, 4096 + 128 * (i 0).val] := by
  rw [k0_off1_eq, Nat.add_comm (128 * (i 0).val) 4096]

/-- Three stores into a block of 128 rows and 12288 columns read back at row `p`, column `q`: a tile of 128
    columns at column offset `4096 + c` stored last, over a store into columns 4096 … 12287, over a store into
    columns 0 … 4095. -/
theorem canon_three (off : Fin 2 → ℕ) (c : ℕ) (hoff : off = ![0, 4096 + c])
    (inb1 : ∀ a, off a + S128x128.size a ≤ S128x12288.size a)
    (inb2 : ∀ a, (![0, 4096] : Fin 2 → ℕ) a + S128x8192.size a ≤ S128x12288.size a)
    (inb3 : ∀ a, (![0, 0] : Fin 2 → ℕ) a + S128x4096.size a ≤ S128x12288.size a)
    (w1 : Vec Ideal S128x128 .f32) (w2 : Vec Ideal S128x8192 .f32) (w3 : Vec Ideal S128x4096 .f32)
    (p : Fin 128) (q : Fin 12288) :
    View.canon ([⟨Rect.unit (s := S128x12288) off S128x128.size inb1, w1⟩,
        ⟨Rect.unit (s := S128x12288) ![0, 4096] S128x8192.size inb2, w2⟩,
        ⟨Rect.unit (s := S128x12288) ![0, 0] S128x4096.size inb3, w3⟩] :
          List (View.Piece (Elt Ideal) S128x12288 .f32)) (ix2 p q)
      = if h : q.val < 4096 then w3 (ix2 p (⟨q.val, h⟩ : Fin 4096))
        else if h' : c ≤ q.val - 4096 ∧ q.val - 4096 < c + 128 then
          w1 (ix2 p (⟨q.val - 4096 - c, by omega⟩ : Fin 128))
        else w2 (ix2 p (⟨q.val - 4096, by omega⟩ : Fin 8192)) := by
  subst hoff
  have hp : p.val < 128 := p.isLt
  have hq : q.val < 12288 := q.isLt
  by_cases h : q.val < 4096
  · rw [dif_pos h]
    rw [View.canon_cons_of_not_mem _ _ (by
      show ix2 p q ∉ (Rect.unit (s := S128x12288) ![0, 4096 + c] S128x128.size inb1).set
      rw [Rect.mem_set_unit]; intro hm
      have h1 := (hm 1).1
      change 4096 + c ≤ q.val at h1
      omega)]
    rw [View.canon_cons_of_not_mem _ _ (by
      show ix2 p q ∉ (Rect.unit (s := S128x12288) ![0, 4096] S128x8192.size inb2).set
      rw [Rect.mem_set_unit]; intro hm
      have h1 := (hm 1).1
      change 4096 ≤ q.val at h1
      omega)]
    have e : (ix2 p q : S128x12288.Idx)
        = (Rect.unit (s := S128x12288) ![0, 0] S128x4096.size inb3).emb (ix2 p (⟨q.val, h⟩ : Fin 4096)) := by
      funext a
      match a with
      | ⟨0, _⟩ => exact Fin.ext (by show p.val = 0 + 1 * p.val; omega)
      | ⟨1, _⟩ => exact Fin.ext (by show q.val = 0 + 1 * q.val; omega)
    rw [e, View.canon_cons_emb]
  · rw [dif_neg h]
    by_cases h' : c ≤ q.val - 4096 ∧ q.val - 4096 < c + 128
    · rw [dif_pos h']
      have e : (ix2 p q : S128x12288.Idx)
          = (Rect.unit (s := S128x12288) ![0, 4096 + c] S128x128.size inb1).emb
              (ix2 p (⟨q.val - 4096 - c, by omega⟩ : Fin 128)) := by
        funext a
        match a with
        | ⟨0, _⟩ => exact Fin.ext (by show p.val = 0 + 1 * p.val; omega)
        | ⟨1, _⟩ => exact Fin.ext (by show q.val = (4096 + c) + 1 * (q.val - 4096 - c); omega)
      rw [e, View.canon_cons_emb]
    · rw [dif_neg h']
      rw [View.canon_cons_of_not_mem _ _ (by
        show ix2 p q ∉ (Rect.unit (s := S128x12288) ![0, 4096 + c] S128x128.size inb1).set
        rw [Rect.mem_set_unit]; intro hm
        have h1 := hm 1
        change 4096 + c ≤ q.val ∧ q.val < 4096 + c + 128 at h1
        omega)]
      have e : (ix2 p q : S128x12288.Idx)
          = (Rect.unit (s := S128x12288) ![0, 4096] S128x8192.size inb2).emb
              (ix2 p (⟨q.val - 4096, by omega⟩ : Fin 8192)) := by
        funext a
        match a with
        | ⟨0, _⟩ => exact Fin.ext (by show p.val = 0 + 1 * p.val; omega)
        | ⟨1, _⟩ => exact Fin.ext (by show q.val = 4096 + 1 * (q.val - 4096); omega)
      rw [e, View.canon_cons_emb]

/-- The three stores read back are the block function. -/
theorem OUT_eq (i : grid0.Coords) (x0 : FVec Ideal S128x4096 .f32) (x1 : FVec Ideal S128 .f32) :
    OUT (F := Ideal) i x0 x1 = blockG i x0 x1 := by
  funext y
  obtain ⟨p, q, rfl⟩ : ∃ (p : Fin 128) (q : Fin 12288), y = ix2 p q := ⟨y 0, y 1, eq_ix2 y⟩
  have hi : (i 0).val < 64 := (i 0).isLt
  have hp : p.val < 128 := p.isLt
  have hq : q.val < 12288 := q.isLt
  unfold OUT stores
  rw [canon_three (k0_off1 i) (128 * (i 0).val) (off1_eq i)]
  unfold blockG
  show _ = (if h0 : q.val = 0 then bctr x0 p * bscl x0 x1 p + beps x0 x1 p
    else if h1 : q.val < 4096 then x0 (ix2 p (⟨q.val, h1⟩ : Fin 4096)) * bscl x0 x1 p
    else if q.val - 4096 = 128 * (i 0).val + p.val then beps x0 x1 p else Cert.Spec.zero)
  by_cases h : q.val < 4096
  · rw [dif_pos h, pay11_apply]
    by_cases h0 : q.val = 0
    · rw [dif_pos h0, if_pos h0]
    · rw [dif_neg h0, if_neg h0, dif_pos h]
  · have h0 : ¬ q.val = 0 := by omega
    rw [dif_neg h, dif_neg h0, dif_neg h]
    by_cases h' : 128 * (i 0).val ≤ q.val - 4096 ∧ q.val - 4096 < 128 * (i 0).val + 128
    · rw [dif_pos h', pay2_apply, pay10_apply]
      by_cases hd : q.val - 4096 = 128 * (i 0).val + p.val
      · rw [if_pos hd, if_pos (Fin.ext (by show p.val = q.val - 4096 - 128 * (i 0).val; omega))]
      · rw [if_neg hd, if_neg (fun e => hd (by have := congrArg Fin.val e; change p.val = q.val - 4096 - 128 * (i 0).val at this; omega))]
    · rw [dif_neg h', pay1_apply]
      rw [if_neg (by omega)]

end Cert.Proof.KI

end
-- ==== Proof.KI.Value.lean ====
/-
  From the kernel's blocks to its whole result array, on the extended reals.

  Grid point t (of 64) reads rows 128·t … 128·t + 127 of the matrix and of the vector of slope parameters, and
  writes back rows 128·t … 128·t + 127 of the result. The block it writes is the body's block function of its two
  input blocks. Read row by row this is the specification's result of the whole arguments at the same rows: row p
  of the block has the centre, radius, fresh coefficient and scale of row 128·t + p of the arrays, and the block's
  diagonal test q - 4096 = 128·t + p is the array's test j - 4096 = i at row i = 128·t + p. The 64 blocks tile the
  8192 rows, so after the run the result array is the specification's function of the two arguments, and the
  arguments are as launched.
-/
import proofs.«123481_j43525198577802_1_alg».proof.Proof.KI.Block
import Idealize.ShloMosaic.Lib.Pipeline.Value

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.Sem
open Idealize.ShloMosaic.Pipeline (Dat)

variable (m : (ℓ : Loc nD τ sig) → Buf (Elt Ideal) ℓ) (ρ : Dev nD → PrngReg)

/-! ## The index maps over the grid -/

/-- Point t's blocks are the t-th row blocks of the three arrays (column block 0), and its grid coordinate is t. -/
theorem idx_rows : ∀ t : Fin cfg0.N, win0_0.index t (0 : Fin 2) = t.val ∧ win0_0.index t (1 : Fin 2) = 0
    ∧ win0_1.index t (0 : Fin 1) = t.val
    ∧ win0_2.index t (0 : Fin 2) = t.val ∧ win0_2.index t (1 : Fin 2) = 0
    ∧ ((grid0.coords t) 0).val = t.val :=
  (by decide +kernel : ∀ t : Fin grid0.N, _)

/-! ## The input blocks as rows of the arguments -/

/-- The matrix's block at point t is rows 128·t … 128·t + 127 of the matrix. -/
theorem iblk0_apply (c : Dev nD) (t : Fin cfg0.N) (y : S128x4096.Idx) (k : S8192x4096.Idx)
    (hk0 : (k 0).val = 128 * t.val + (y 0).val) (hk1 : (k 1).val = (y 1).val) :
    (iblk m c 0 t : FVec Ideal S128x4096 .f32) y
      = (m ((c.tc : Thread nD τ).loc main_arg0) : S8192x4096.Idx → EReal) k := by
  obtain ⟨e0, e1, -, -, -, -⟩ := idx_rows t
  unfold iblk
  rw [View.read_apply]
  show V m c main_arg0 _ = m (c.tc.loc main_arg0) _
  unfold V
  congr 1
  funext a
  apply Fin.ext
  match a with
  | ⟨0, _⟩ => show win0_0.index t 0 * 128 + 1 * (y 0).val = (k 0).val; rw [e0, hk0]; omega
  | ⟨1, _⟩ => show win0_0.index t 1 * 4096 + 1 * (y 1).val = (k 1).val; rw [e1, hk1]; omega

/-- The vector's block at point t is entries 128·t … 128·t + 127 of the vector. -/
theorem iblk1_apply (c : Dev nD) (t : Fin cfg0.N) (y : S128.Idx) (k : S8192.Idx)
    (hk0 : (k 0).val = 128 * t.val + (y 0).val) :
    (iblk m c 1 t : FVec Ideal S128 .f32) y
      = (m ((c.tc : Thread nD τ).loc main_arg1) : S8192.Idx → EReal) k := by
  obtain ⟨-, -, e2, -, -, -⟩ := idx_rows t
  unfold iblk
  rw [View.read_apply]
  show V m c main_arg1 _ = m (c.tc.loc main_arg1) _
  unfold V
  congr 1
  funext a
  apply Fin.ext
  match a with
  | ⟨0, _⟩ => show win0_1.index t 0 * 128 + 1 * (y 0).val = (k 0).val; rw [e2, hk0]; omega

/-! ## A block of rows against the arrays -/

/-- For blocks x0, x1 that are rows 128·n … 128·n + 127 of arrays X, Lam: row p of the block has the centre,
    radius, fresh coefficient and scale of row 128·n + p of the arrays. -/
theorem brow_eq (X : S8192x4096.Idx → EReal) (Lam : S8192.Idx → EReal) (n : Nat) (hn : n < 64)
    (x0 : FVec Ideal S128x4096 .f32) (x1 : FVec Ideal S128 .f32)
    (h0 : ∀ (p : Fin 128) (q : Fin 4096), x0 (ix2 p q) = X (ix2 (⟨128 * n + p.val, by omega⟩ : Fin 8192) q))
    (h1 : ∀ p : Fin 128, x1 (ix1 p) = Lam (ix1 (⟨128 * n + p.val, by omega⟩ : Fin 8192)))
    (p : Fin 128) :
    bctr x0 p = Cert.Spec.ctr X (⟨128 * n + p.val, by omega⟩ : Fin 8192)
    ∧ brad x0 p = Cert.Spec.rad X (⟨128 * n + p.val, by omega⟩ : Fin 8192)
    ∧ beps x0 x1 p = Cert.Spec.eps X Lam (⟨128 * n + p.val, by omega⟩ : Fin 8192)
    ∧ bscl x0 x1 p = Cert.Spec.scl X Lam (⟨128 * n + p.val, by omega⟩ : Fin 8192) := by
  have hc : bctr x0 p = Cert.Spec.ctr X (⟨128 * n + p.val, by omega⟩ : Fin 8192) := h0 p 0
  have hr : brad x0 p = Cert.Spec.rad X (⟨128 * n + p.val, by omega⟩ : Fin 8192) := by
    unfold brad Cert.Spec.rad
    exact Finset.sum_congr rfl fun k _ => by rw [h0]
  refine ⟨hc, hr, ?_, ?_⟩
  · unfold beps Cert.Spec.eps; rw [hc, hr, h1]
  · unfold bscl Cert.Spec.scl; rw [hc, hr, h1]

/-- The body's block function of such blocks, at grid coordinate n, is the specification's result of the arrays
    at the block's place: row 128·n + p, the same column. -/
theorem blockG_apply (X : S8192x4096.Idx → EReal) (Lam : S8192.Idx → EReal) (i : grid0.Coords) (n : Nat)
    (hi : (i 0).val = n) (hn : n < 64)
    (x0 : FVec Ideal S128x4096 .f32) (x1 : FVec Ideal S128 .f32)
    (h0 : ∀ (p : Fin 128) (q : Fin 4096), x0 (ix2 p q) = X (ix2 (⟨128 * n + p.val, by omega⟩ : Fin 8192) q))
    (h1 : ∀ p : Fin 128, x1 (ix1 p) = Lam (ix1 (⟨128 * n + p.val, by omega⟩ : Fin 8192)))
    (y : S128x12288.Idx) (k : S8192x12288.Idx)
    (hk0 : (k 0).val = 128 * n + (y 0).val) (hk1 : (k 1).val = (y 1).val) :
    blockG i x0 x1 y = Cert.Spec.G X Lam k := by
  have hy0 : (y 0).val < 128 := (y 0).isLt
  obtain ⟨hc, hr, he, hs⟩ := brow_eq X Lam n hn x0 x1 h0 h1 (y 0)
  have ek0 : k 0 = (⟨128 * n + (y 0).val, by omega⟩ : Fin 8192) := Fin.ext hk0
  have ek1 : k 1 = (⟨(y 1).val, (y 1).isLt⟩ : Fin 12288) := Fin.ext hk1
  show _ = Cert.Spec.out X Lam (k 0) (k 1)
  rw [ek0, ek1]
  unfold blockG Cert.Spec.out
  dsimp only
  rw [hc, he, hs, hi]
  by_cases c0 : (y 1).val = 0
  · rw [dif_pos c0, dif_pos c0]
  · rw [dif_neg c0, dif_neg c0]
    by_cases c1 : (y 1).val < 4096
    · rw [dif_pos c1, dif_pos c1, h0 (y 0) ⟨(y 1).val, c1⟩]
    · rw [dif_neg c1, dif_neg c1]

/-! ## What a point writes back -/

/-- Point t writes back block t of the specification's result of the two arguments. -/
theorem flushed_eq (c : Dev nD) (t : Fin cfg0.N) :
    (dats m 0 c).flushed 2 t = ((cfg0.win 2).blk t).view.read (Elt Ideal)
      (Cert.Spec.G (m ((c.tc : Thread nD τ).loc main_arg0)) (m ((c.tc : Thread nD τ).loc main_arg1))) := by
  show (cfg0.win 2).cut (grid0.coords t) ((dats m 0 c).after 2 t) = _
  rw [after0_2]
  obtain ⟨-, -, -, e3, e4, e5⟩ := idx_rows t
  have hN : t.val < 64 := Nat.lt_of_lt_of_eq t.isLt (show cfg0.N = 64 from N_0)
  funext y
  show OUT (F := Ideal) (grid0.coords t) (iblk m c 0 t) (iblk m c 1 t) y
    = Cert.Spec.G _ _ (((cfg0.win 2).blk t).view.emb y)
  refine (congrFun (OUT_eq (grid0.coords t) (iblk m c 0 t) (iblk m c 1 t)) y).trans ?_
  refine blockG_apply _ _ (grid0.coords t) t.val e5 hN (iblk m c 0 t) (iblk m c 1 t)
    (fun p q => iblk0_apply m c t _ _ rfl rfl) (fun p => iblk1_apply m c t _ _ rfl) y _ ?_ ?_
  · show win0_2.index t 0 * 128 + 1 * (y 0).val = 128 * t.val + (y 0).val
    rw [e3]; omega
  · show win0_2.index t 1 * 12288 + 1 * (y 1).val = (y 1).val
    rw [e4]; omega

/-! ## The blocks tile the array -/

/-- An index of the result array is in point t's block iff each coordinate is in the block's range. -/
theorem mem_blk (t : Fin cfg0.N) (i : S8192x12288.Idx) :
    i ∈ ((cfg0.win 2).blk t).view.set ↔ ∀ a : Fin 2, win0_2.index t a * S128x12288.size a ≤ (i a).val
      ∧ (i a).val < win0_2.index t a * S128x12288.size a + S128x12288.size a := by
  show i ∈ ((View.whole main_v0).slice (win0_2.rect t)).set ↔ _
  rw [View.set_slice_whole, Rect.mem_set_unit]
  exact Iff.rfl

/-- Row r of the result array is in the block of point r / 128, and every point writes its block back. -/
theorem cover (i : S8192x12288.Idx) :
    ∃ t : Fin cfg0.N, (cfg0.win 2).flush t = true ∧ i ∈ ((cfg0.win 2).blk t).view.set := by
  have hi0 : (i 0).val < 8192 := (i 0).isLt
  have hi1 : (i 1).val < 12288 := (i 1).isLt
  have hN : cfg0.N = 64 := N_0
  have ht : (i 0).val / 128 < cfg0.N := by rw [hN]; omega
  obtain ⟨-, -, -, e3, e4, -⟩ := idx_rows ⟨(i 0).val / 128, ht⟩
  refine ⟨⟨(i 0).val / 128, ht⟩, flush0_2 _, ?_⟩
  rw [mem_blk]
  intro a
  match a with
  | ⟨0, _⟩ =>
    show win0_2.index ⟨(i 0).val / 128, ht⟩ 0 * 128 ≤ (i 0).val
      ∧ (i 0).val < win0_2.index ⟨(i 0).val / 128, ht⟩ 0 * 128 + 128
    rw [e3]; show (i 0).val / 128 * 128 ≤ (i 0).val ∧ (i 0).val < (i 0).val / 128 * 128 + 128; omega
  | ⟨1, _⟩ =>
    show win0_2.index ⟨(i 0).val / 128, ht⟩ 1 * 12288 ≤ (i 1).val
      ∧ (i 1).val < win0_2.index ⟨(i 0).val / 128, ht⟩ 1 * 12288 + 12288
    rw [e4]; omega

/-- The result array after the run is the specification's result of the two arguments. -/
theorem final (c : Dev nD) : (dats m 0 c).arrAt 2 cfg0.N
    = Cert.Spec.G (m ((c.tc : Thread nD τ).loc main_arg0)) (m ((c.tc : Thread nD τ).loc main_arg1)) :=
  (dats m 0 c).arrAt_eq_of_cover 2 _ (fun t _ => flushed_eq m c t) cover

/-! ## The run, with its result named -/

/-- Every weakly fair execution of the program from a memory with zero counters terminates with the result array
    at the specification's result of the two arguments and the arguments unchanged. -/
theorem run_value :
    θ_run (defs (F := Ideal)) (onTc (τ := τ) (main (F := Ideal))) ⟨m, fun _ => 0, ρ⟩ (fun r => ∀ c : Dev nD,
      r.2.mem ((c.tc : Thread nD τ).loc main_v0)
        = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Proof.KI

end
-- ==== Proof.RefTerm.lean ====
/-
  The reference's result as one pure function of its two argument arrays: the operations of its @main composed
  in order (the outlined functions — the four `where`s and `diag` — written out at their call sites), each line one
  operation of the printed program, read at the extended reals.
-/
import proofs.«123481_j43525198577802_1_alg».proof.ReferenceIdeal
import Idealize.ShloMosaic.PureOps.Ideal
import proofs.«123481_j43525198577802_1_alg».proof.Proof.Gen.ReferenceIdeal

noncomputable section

namespace Cert.RefSide

open Idealize.ShloMosaic
open Cert.ReferenceIdeal Cert.ReferenceIdeal.Gen

/-- The fresh coefficient of every row (`%25`): zero off the crossing rows, else the relaxation's new error term. -/
def refEps (x : FVec Ideal S8192x4096 .f32) (lam : FVec Ideal S8192 .f32) : FVec Ideal S8192 .f32 :=
  let v0 : FVec Ideal S8192x1 .f32 := extractStridedSlice S8192x1 ![0, 0] x slices_S8192x4096_S8192x1_0_0
  let v1 : FVec Ideal S8192 .f32 := shapeCast S8192 v0 shapeCasts_S8192x1_S8192
  let v2 : FVec Ideal S8192x4095 .f32 := extractStridedSlice S8192x4095 ![0, 1] x slices_S8192x4096_S8192x4095_0_1
  let v3 : FVec Ideal S8192x4095 .f32 := Host.absf v2
  let v4 : FVec Ideal S8192 .f32 := Host.reduceAdd v3 (constant (F := Ideal) S_ .f32 0x00000000#32) reducesTo_S8192x4095_S8192_d1 h_S_
  let v5 : FVec Ideal S8192 .f32 := subf v1 v4
  let v6 : FVec Ideal S8192 .f32 := addf v1 v4
  let v7 : FVec Ideal S8192 .f32 := broadcastInDim S8192 ![] bcast_S_S8192 (constant (F := Ideal) S_ .f32 0x00000000#32)
  let v8 : IVec S8192 1 := cmpf .ole v6 v7
  let v9 : IVec S8192 1 := noti v8
  let v10 : FVec Ideal S8192 .f32 := broadcastInDim S8192 ![] bcast_S_S8192 (constant (F := Ideal) S_ .f32 0x00000000#32)
  let v11 : IVec S8192 1 := cmpf .olt v5 v10
  let v12 : IVec S8192 1 := andi v9 v11
  let v13 : FVec Ideal S8192 .f32 := broadcastInDim S8192 ![] bcast_S_S8192 (constant (F := Ideal) S_ .f32 0x3F800000#32)
  let v14 : FVec Ideal S8192 .f32 := subf v6 v13
  let v15 : FVec Ideal S8192 .f32 := Host.divf v6 v14
  let v16 : IVec S8192 1 := cmpf .oge lam v15
  let v17 : FVec Ideal S8192 .f32 := Host.negf v5
  let v18 : FVec Ideal S8192 .f32 := mulf v17 lam
  let v19 : FVec Ideal S8192 .f32 := broadcastInDim S8192 ![] bcast_S_S8192 (constant (F := Ideal) S_ .f32 0x3F000000#32)
  let v20 : FVec Ideal S8192 .f32 := mulf v18 v19
  let v21 : FVec Ideal S8192 .f32 := broadcastInDim S8192 ![] bcast_S_S8192 (constant (F := Ideal) S_ .f32 0x3F800000#32)
  let v22 : FVec Ideal S8192 .f32 := subf v21 lam
  let v23 : FVec Ideal S8192 .f32 := mulf v6 v22
  let v24 : FVec Ideal S8192 .f32 := select v16 v20 v23
  select v12 v24 (broadcastInDim S8192 ![] bcast_S_S8192 (id (constant (F := Ideal) S_ .f32 0x00000000#32)))

/-- The scale of every row (`%27`): `0` dead, `lam` crossing, `1` stable. -/
def refScale (x : FVec Ideal S8192x4096 .f32) (lam : FVec Ideal S8192 .f32) : FVec Ideal S8192 .f32 :=
  let v0 : FVec Ideal S8192x1 .f32 := extractStridedSlice S8192x1 ![0, 0] x slices_S8192x4096_S8192x1_0_0
  let v1 : FVec Ideal S8192 .f32 := shapeCast S8192 v0 shapeCasts_S8192x1_S8192
  let v2 : FVec Ideal S8192x4095 .f32 := extractStridedSlice S8192x4095 ![0, 1] x slices_S8192x4096_S8192x4095_0_1
  let v3 : FVec Ideal S8192x4095 .f32 := Host.absf v2
  let v4 : FVec Ideal S8192 .f32 := Host.reduceAdd v3 (constant (F := Ideal) S_ .f32 0x00000000#32) reducesTo_S8192x4095_S8192_d1 h_S_
  let v5 : FVec Ideal S8192 .f32 := subf v1 v4
  let v6 : FVec Ideal S8192 .f32 := addf v1 v4
  let v7 : FVec Ideal S8192 .f32 := broadcastInDim S8192 ![] bcast_S_S8192 (constant (F := Ideal) S_ .f32 0x00000000#32)
  let v8 : IVec S8192 1 := cmpf .ole v6 v7
  let v9 : IVec S8192 1 := noti v8
  let v10 : FVec Ideal S8192 .f32 := broadcastInDim S8192 ![] bcast_S_S8192 (constant (F := Ideal) S_ .f32 0x00000000#32)
  let v11 : IVec S8192 1 := cmpf .olt v5 v10
  let v12 : IVec S8192 1 := andi v9 v11
  let v26 : FVec Ideal S8192 .f32 := select v12 lam (broadcastInDim S8192 ![] bcast_S_S8192 (id (constant (F := Ideal) S_ .f32 0x3F800000#32)))
  select v8 (broadcastInDim S8192 ![] bcast_S_S8192 (id (constant (F := Ideal) S_ .f32 0x00000000#32))) v26

/-- The relaxed rows (`%32`): every row scaled, then the fresh coefficient added into column 0 (the scatter-add at the
    one column index 0). -/
def refMain (x : FVec Ideal S8192x4096 .f32) (lam : FVec Ideal S8192 .f32) : FVec Ideal S8192x4096 .f32 :=
  let v28 : FVec Ideal S8192x1 .f32 := broadcastInDim S8192x1 ![0] bcast_S8192_S8192x1_0 (refScale x lam)
  let v29 : FVec Ideal S8192x4096 .f32 := broadcastInDim S8192x4096 ![0, 1] bcast_S8192x1_S8192x4096_0_1 v28
  let v30 : FVec Ideal S8192x4096 .f32 := mulf x v29
  let v31 : IVec S1 32 := broadcastInDim S1 ![] bcast_S_S1 (constantI S_ 32 0#32)
  Host.scatter scatter_S8192x4096_S1_S8192_0_1_1_0 FloatOps.addf v30 v31 (refEps x lam)

/-- The diagonal matrix of the fresh coefficients (`%33`, jnp.diag): where the row's number equals the column's, the
    row's coefficient; zero elsewhere. -/
def refDiag (x : FVec Ideal S8192x4096 .f32) (lam : FVec Ideal S8192 .f32) : FVec Ideal S8192x8192 .f32 :=
  let d0 : FVec Ideal S8192 .f32 := pad S8192 ![0] ![0] ![0] (refEps x lam) (constant (F := Ideal) S_ .f32 0x00000000#32) pads_S8192_S8192_000 h_S_
  let d1 : IVec S8192x8192 32 := iotaInDim S8192x8192 32 0
  let d2 : IVec S8192x8192 32 := iotaInDim S8192x8192 32 1
  let d3 : IVec S8192x8192 32 := broadcastInDim S8192x8192 ![] bcast_S_S8192x8192 (constantI S_ 32 0#32)
  let d4 : IVec S8192x8192 32 := addi d1 d3
  let d5 : IVec S8192x8192 1 := cmpi .eq d4 d2
  let d6 : FVec Ideal S8192x1 .f32 := broadcastInDim S8192x1 ![0] bcast_S8192_S8192x1_0 d0
  let w0 : FVec Ideal S8192x8192 .f32 := broadcastInDim S8192x8192 ![0, 1] bcast_S8192x1_S8192x8192_0_1 d6
  let w1 : FVec Ideal S8192x8192 .f32 := broadcastInDim S8192x8192 ![] bcast_S_S8192x8192 (constant (F := Ideal) S_ .f32 0x00000000#32)
  select d5 w0 w1

/-- The reference's result (`%34`): the relaxed rows and the diagonal matrix side by side. -/
def refTerm (x : FVec Ideal S8192x4096 .f32) (lam : FVec Ideal S8192 .f32) : FVec Ideal S8192x12288 .f32 :=
  concatenate S8192x12288 1 [⟨S8192x4096, refMain x lam⟩, ⟨S8192x8192, refDiag x lam⟩]
    concatenates_S8192x4096_S8192x8192_S8192x12288_d1

end Cert.RefSide

end
-- ==== Proof.RefRun.lean ====
/-
  The reference program's run, read back. Its @main — the outlined functions (the four `where`s and `diag`, the
  last calling a fifth `where`) written out at their call sites — is a straight line of sixty-three host
  operations; run from any memory with zero counters it terminates, the result buffer ends at the operations'
  composed pure term of the two argument arrays (`refTerm`), and the argument arrays end unchanged.
-/
import proofs.«123481_j43525198577802_1_alg».proof.Proof.RefTerm
import Idealize.ShloMosaic.Lib.StableHlo.Run
import Mathlib.Data.List.Basic

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations but the last, in order: its own thirty-nine, and at each call the callee's, over that call's
    buffers (`where`: the select; `where_0`, `where_1`, `where_2`: the scalar converted to its own type, broadcast,
    the select; `diag`: ten, then `where_3`'s two broadcasts and select). -/
abbrev ops₀ : List (HloOp τ sig (Elt F)) :=
  [ unary main_arg0 main_v0 ((extractStridedSlice S8192x1 ![0, 0] · slices_S8192x4096_S8192x1_0_0) : (⟨S8192x4096, .f32⟩ : BufTy).Contents (Elt F) → (⟨S8192x1, .f32⟩ : BufTy).Contents (Elt F)),
    reshape main_v0 main_v1 rfl shapeCasts_S8192x1_S8192,
    unary main_arg0 main_v2 ((extractStridedSlice S8192x4095 ![0, 1] · slices_S8192x4096_S8192x4095_0_1) : (⟨S8192x4096, .f32⟩ : BufTy).Contents (Elt F) → (⟨S8192x4095, .f32⟩ : BufTy).Contents (Elt F)),
    unary main_v2 main_v3 (Host.absf : (⟨S8192x4095, .f32⟩ : BufTy).Contents (Elt F) → (⟨S8192x4095, .f32⟩ : BufTy).Contents (Elt F)),
    nullary main_cst (constant S_ .f32 0x00000000#32),
    binary main_v3 main_cst main_v4 ((fun x v => Host.reduceAdd x v reducesTo_S8192x4095_S8192_d1 h_S_) : (⟨S8192x4095, .f32⟩ : BufTy).Contents (Elt F) → (⟨S_, .f32⟩ : BufTy).Contents (Elt F) → (⟨S8192, .f32⟩ : BufTy).Contents (Elt F)),
    binary main_v1 main_v4 main_v5 (subf : (⟨S8192, .f32⟩ : BufTy).Contents (Elt F) → (⟨S8192, .f32⟩ : BufTy).Contents (Elt F) → (⟨S8192, .f32⟩ : BufTy).Contents (Elt F)),
    binary main_v1 main_v4 main_v6 (addf : (⟨S8192, .f32⟩ : BufTy).Contents (Elt F) → (⟨S8192, .f32⟩ : BufTy).Contents (Elt F) → (⟨S8192, .f32⟩ : BufTy).Contents (Elt F)),
    nullary main_cst_0 (constant S_ .f32 0x00000000#32),
    unary main_cst_0 main_v7 (broadcastInDim S8192 ![] bcast_S_S8192 : (⟨S_, .f32⟩ : BufTy).Contents (Elt F) → (⟨S8192, .f32⟩ : BufTy).Contents (Elt F)),
    binary main_v6 main_v7 main_v8 (cmpf .ole : (⟨S8192, .f32⟩ : BufTy).Contents (Elt F) → (⟨S8192, .f32⟩ : BufTy).Contents (Elt F) → (⟨S8192, .i1⟩ : BufTy).Contents (Elt F)),
    unary main_v8 main_v9 (noti : (⟨S8192, .i1⟩ : BufTy).Contents (Elt F) → (⟨S8192, .i1⟩ : BufTy).Contents (Elt F)),
    nullary main_cst_1 (constant S_ .f32 0x00000000#32),
    unary main_cst_1 main_v10 (broadcastInDim S8192 ![] bcast_S_S8192 : (⟨S_, .f32⟩ : BufTy).Contents (Elt F) → (⟨S8192, .f32⟩ : BufTy).Contents (Elt F)),
    binary main_v5 main_v10 main_v11 (cmpf .olt : (⟨S8192, .f32⟩ : BufTy).Contents (Elt F) → (⟨S8192, .f32⟩ : BufTy).Contents (Elt F) → (⟨S8192, .i1⟩ : BufTy).Contents (Elt F)),
    binary main_v9 main_v11 main_v12 (andi : (⟨S8192, .i1⟩ : BufTy).Contents (Elt F) → (⟨S8192, .i1⟩ : BufTy).Contents (Elt F) → (⟨S8192, .i1⟩ : BufTy).Contents (Elt F)),
    nullary main_cst_2 (constant S_ .f32 0x3F800000#32),
    unary main_cst_2 main_v13 (broadcastInDim S8192 ![] bcast_S_S8192 : (⟨S_, .f32⟩ : BufTy).Contents (Elt F) → (⟨S8192, .f32⟩ : BufTy).Contents (Elt F)),
    binary main_v6 main_v13 main_v14 (subf : (⟨S8192, .f32⟩ : BufTy).Contents (Elt F) → (⟨S8192, .f32⟩ : BufTy).Contents (Elt F) → (⟨S8192, .f32⟩ : BufTy).Contents (Elt F)),
    binary main_v6 main_v14 main_v15 (Host.divf : (⟨S8192, .f32⟩ : BufTy).Contents (Elt F) → (⟨S8192, .f32⟩ : BufTy).Contents (Elt F) → (⟨S8192, .f32⟩ : BufTy).Contents (Elt F)),
    binary main_arg1 main_v15 main_v16 (cmpf .oge : (⟨S8192, .f32⟩ : BufTy).Contents (Elt F) → (⟨S8192, .f32⟩ : BufTy).Contents (Elt F) → (⟨S8192, .i1⟩ : BufTy).Contents (Elt F)),
    unary main_v5 main_v17 (Host.negf : (⟨S8192, .f32⟩ : BufTy).Contents (Elt F) → (⟨S8192, .f32⟩ : BufTy).Contents (Elt F)),
    binary main_v17 main_arg1 main_v18 (mulf : (⟨S8192, .f32⟩ : BufTy).Contents (Elt F) → (⟨S8192, .f32⟩ : BufTy).Contents (Elt F) → (⟨S8192, .f32⟩ : BufTy).Contents (Elt F)),
    nullary main_cst_3 (constant S_ .f32 0x3F000000#32),
    unary main_cst_3 main_v19 (broadcastInDim S8192 ![] bcast_S_S8192 : (⟨S_, .f32⟩ : BufTy).Contents (Elt F) → (⟨S8192, .f32⟩ : BufTy).Contents (Elt F)),
    binary main_v18 main_v19 main_v20 (mulf : (⟨S8192, .f32⟩ : BufTy).Contents (Elt F) → (⟨S8192, .f32⟩ : BufTy).Contents (Elt F) → (⟨S8192, .f32⟩ : BufTy).Contents (Elt F)),
    nullary main_cst_4 (constant S_ .f32 0x3F800000#32),
    unary main_cst_4 main_v21 (broadcastInDim S8192 ![] bcast_S_S8192 : (⟨S_, .f32⟩ : BufTy).Contents (Elt F) → (⟨S8192, .f32⟩ : BufTy).Contents (Elt F)),
    binary main_v21 main_arg1 main_v22 (subf : (⟨S8192, .f32⟩ : BufTy).Contents (Elt F) → (⟨S8192, .f32⟩ : BufTy).Contents (Elt F) → (⟨S8192, .f32⟩ : BufTy).Contents (Elt F)),
    binary main_v6 main_v22 main_v23 (mulf : (⟨S8192, .f32⟩ : BufTy).Contents (Elt F) → (⟨S8192, .f32⟩ : BufTy).Contents (Elt F) → (⟨S8192, .f32⟩ : BufTy).Contents (Elt F)),
    TRef.ternary (.of main_v16) (.of main_v20) (.of main_v23) main_call0.v0 select,
    nullary main_cst_5 (constant S_ .f32 0x00000000#32),
    TRef.unary (.of main_cst_5) main_call1.v0 id,
    TRef.unary main_call1.v0 main_call1.v1 (broadcastInDim S8192 ![] bcast_S_S8192),
    TRef.ternary (.of main_v12) (.of main_v24) main_call1.v1 main_call1.v2 select,
    nullary main_cst_6 (constant S_ .f32 0x3F800000#32),
    TRef.unary (.of main_cst_6) main_call2.v0 id,
    TRef.unary main_call2.v0 main_call2.v1 (broadcastInDim S8192 ![] bcast_S_S8192),
    TRef.ternary (.of main_v12) (.of main_arg1) main_call2.v1 main_call2.v2 select,
    nullary main_cst_7 (constant S_ .f32 0x00000000#32),
    TRef.unary (.of main_cst_7) main_call3.v0 id,
    TRef.unary main_call3.v0 main_call3.v1 (broadcastInDim S8192 ![] bcast_S_S8192),
    TRef.ternary (.of main_v8) main_call3.v1 (.of main_v26) main_call3.v2 select,
    unary main_v27 main_v28 (broadcastInDim S8192x1 ![0] bcast_S8192_S8192x1_0 : (⟨S8192, .f32⟩ : BufTy).Contents (Elt F) → (⟨S8192x1, .f32⟩ : BufTy).Contents (Elt F)),
    unary main_v28 main_v29 (broadcastInDim S8192x4096 ![0, 1] bcast_S8192x1_S8192x4096_0_1 : (⟨S8192x1, .f32⟩ : BufTy).Contents (Elt F) → (⟨S8192x4096, .f32⟩ : BufTy).Contents (Elt F)),
    binary main_arg0 main_v29 main_v30 (mulf : (⟨S8192x4096, .f32⟩ : BufTy).Contents (Elt F) → (⟨S8192x4096, .f32⟩ : BufTy).Contents (Elt F) → (⟨S8192x4096, .f32⟩ : BufTy).Contents (Elt F)),
    nullary main_c (constantI S_ 32 0#32),
    unary main_c main_v31 (broadcastInDim S1 ![] bcast_S_S1 : (⟨S_, .i32⟩ : BufTy).Contents (Elt F) → (⟨S1, .i32⟩ : BufTy).Contents (Elt F)),
    ternary main_v30 main_v31 main_v25 main_v32 ((fun x i u => Host.scatter scatter_S8192x4096_S1_S8192_0_1_1_0 FloatOps.addf x i u) : (⟨S8192x4096, .f32⟩ : BufTy).Contents (Elt F) → (⟨S1, .i32⟩ : BufTy).Contents (Elt F) → (⟨S8192, .f32⟩ : BufTy).Contents (Elt F) → (⟨S8192x4096, .f32⟩ : BufTy).Contents (Elt F)),
    TRef.nullary main_call4.cst (constant S_ .f32 0x00000000#32),
    TRef.binary (.of main_v25) main_call4.cst main_call4.v0 (fun x v => pad S8192 ![0] ![0] ![0] x v pads_S8192_S8192_000 h_S_),
    TRef.nullary main_call4.v1 (iotaInDim S8192x8192 32 0),
    TRef.nullary main_call4.v2 (iotaInDim S8192x8192 32 1),
    TRef.nullary main_call4.c (constantI S_ 32 0#32),
    TRef.unary main_call4.c main_call4.v3 (broadcastInDim S8192x8192 ![] bcast_S_S8192x8192),
    TRef.binary main_call4.v1 main_call4.v3 main_call4.v4 addi,
    TRef.binary main_call4.v4 main_call4.v2 main_call4.v5 (cmpi .eq),
    TRef.unary main_call4.v0 main_call4.v6 (broadcastInDim S8192x1 ![0] bcast_S8192_S8192x1_0),
    TRef.nullary main_call4.cst_0 (constant S_ .f32 0x00000000#32),
    TRef.unary main_call4.v6 main_call4.call0.v0 (broadcastInDim S8192x8192 ![0, 1] bcast_S8192x1_S8192x8192_0_1),
    TRef.unary main_call4.cst_0 main_call4.call0.v1 (broadcastInDim S8192x8192 ![] bcast_S_S8192x8192),
    TRef.ternary main_call4.v5 main_call4.call0.v0 main_call4.call0.v1 main_call4.call0.v2 select ]

/-- @main's last operation: the relaxed rows and the diagonal matrix side by side. -/
abbrev opLast : HloOp τ sig (Elt F) :=
  binary main_v32 main_v33 main_v34 ((fun a b => concatenate S8192x12288 1 [⟨S8192x4096, a⟩, ⟨S8192x8192, b⟩] concatenates_S8192x4096_S8192x8192_S8192x12288_d1) : (⟨S8192x4096, .f32⟩ : BufTy).Contents (Elt F) → (⟨S8192x8192, .f32⟩ : BufTy).Contents (Elt F) → (⟨S8192x12288, .f32⟩ : BufTy).Contents (Elt F))

/-- @main's sixty-three operations, in order. -/
abbrev ops : List (HloOp τ sig (Elt F)) := ops₀ ++ [opLast]

-- sixty-three sequencing steps re-associated: one level of recursion per statement
set_option maxRecDepth 2048 in
/-- @main is that straight line: the outlined functions' definitions unfolded at their calls, both sides are one chain of
    steps once sequencing is reassociated. -/
theorem main_eq (c : Dev nD) : main (F := F) c = seq ops := by
  simp only [main, fn_where.body, fn_where_0.body, fn_where_1.body, fn_where_2.body, fn_where_3.body, fn_diag.body,
    ops, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨⟨unary_bufs_sub .., reshape_bufs_sub .., unary_bufs_sub .., unary_bufs_sub .., nullary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., binary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., ternary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩, binary_bufs_sub ..⟩

/-- A line run in two parts. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

attribute [local irreducible] Host.reduceAdd Host.scatter Host.absf Host.divf Host.negf pad concatenate extractStridedSlice shapeCast
  broadcastInDim iotaInDim select mulf addf subf cmpf cmpi addi andi noti constant constantI in
set_option maxRecDepth 8192 in
set_option maxHeartbeats 1000000 in
/-- Before the last operation, the relaxed rows' buffer holds their composed term. -/
theorem after_v32 (V : Valuation τ sig (Elt Ideal)) :
    after (ops₀ (F := Ideal)) V (main_v32 : DevRef τ sig)
      = refMain (V (main_arg0 : DevRef τ sig)) (V (main_arg1 : DevRef τ sig)) := by
  after_results_simp
  rfl

attribute [local irreducible] Host.reduceAdd Host.scatter Host.absf Host.divf Host.negf pad concatenate extractStridedSlice shapeCast
  broadcastInDim iotaInDim select mulf addf subf cmpf cmpi addi andi noti constant constantI in
set_option maxRecDepth 8192 in
set_option maxHeartbeats 1000000 in
/-- Before the last operation, the diagonal matrix's buffer holds its composed term. -/
theorem after_v33 (V : Valuation τ sig (Elt Ideal)) :
    after (ops₀ (F := Ideal)) V (main_v33 : DevRef τ sig)
      = refDiag (V (main_arg0 : DevRef τ sig)) (V (main_arg1 : DevRef τ sig)) := by
  after_results_simp
  rfl

/-- What the line leaves at the result buffer is the composed term of the two argument arrays. -/
theorem after_v34 (V : Valuation τ sig (Elt Ideal)) :
    after (ops (F := Ideal)) V (main_v34 : DevRef τ sig)
      = refTerm (V (main_arg0 : DevRef τ sig)) (V (main_arg1 : DevRef τ sig)) := by
  rw [ops, after_append', after_cons, after_nil, opLast, binary_result, after_v32, after_v33]
  rfl

set_option maxRecDepth 8192 in
/-- No operation writes the first argument array. -/
theorem after_arg0 (V : Valuation τ sig (Elt F)) :
    after (ops (F := F)) V (main_arg0 : DevRef τ sig) = V (main_arg0 : DevRef τ sig) := by
  rw [ops, after_append']
  after_results_simp

set_option maxRecDepth 8192 in
/-- No operation writes the second argument array. -/
theorem after_arg1 (V : Valuation τ sig (Elt F)) :
    after (ops (F := F)) V (main_arg1 : DevRef τ sig) = V (main_arg1 : DevRef τ sig) := by
  rw [ops, after_append']
  after_results_simp

open Cert.ReferenceIdeal in
/-- From any memory with zero counters, every weakly fair execution of the reference's @main terminates; the result
    buffer ends at the composed term of the two argument arrays' launch contents, and those arrays end unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v34).trans (after_v34 _), (h c main_arg0).trans (after_arg0 _),
      (h c main_arg1).trans (after_arg1 _)⟩)
    (run_seq scopedRefs_eq scopedSems_eq defs main (fun _ => ops) main_eq (fun _ => ops_sub) m ρ)

end Cert.RefSide

end
-- ==== Proof.RefValue.lean ====
/-
  The reference's value, index by index: the pure term of the reference's result is the specification's array.

  Row by row, the reference's fresh coefficient and scale are the specification's newEps and scale of the row's
  centre (column 0), radius (the sum of the absolute values of columns 1 … 4095) and slope parameter. The scatter-add
  at the one column index 0 is a left fold of pointwise overwrites over the 8192 updates; update n lands at row n,
  column 0, the landing places are pairwise different, so the fold read at an index adds the row's update in
  column 0 and changes nothing elsewhere. The diagonal matrix compares the row's and the column's numbers as 32-bit
  words, which are equal exactly when the numbers are. The concatenation reads the relaxed rows in columns below
  4096 and the diagonal matrix, 4096 columns to the left, from there on.
-/
import proofs.«123481_j43525198577802_1_alg».proof.Proof.Spec
import proofs.«123481_j43525198577802_1_alg».proof.Proof.RefTerm
import Idealize.ShloMosaic.Lib.ValueIdx
import Idealize.ShloMosaic.Lib.IdealHost
import Idealize.ShloMosaic.Lib.Pipeline.Value
import Idealize.ShloMosaic.Lib.KernelVsHost
import Idealize.ShloMosaic.PureOps.Ideal.Laws

noncomputable section

namespace Cert.RefSide

open Idealize.ShloMosaic Idealize.ShloMosaic.ValueIdx
open Cert.ReferenceIdeal Cert.ReferenceIdeal.Gen

/-! ## The rows' centres, radii, fresh coefficients and scales -/

/-- The vector of the rows' centres: column 0 of the matrix, as the reference slices and reshapes it. -/
def ctrVec (x : FVec Ideal S8192x4096 .f32) : FVec Ideal S8192 .f32 :=
  shapeCast S8192 (extractStridedSlice S8192x1 ![0, 0] x slices_S8192x4096_S8192x1_0_0) shapeCasts_S8192x1_S8192

/-- The vector of the rows' radii: the row sums of the absolute values of columns 1 … 4095. -/
def radVec (x : FVec Ideal S8192x4096 .f32) : FVec Ideal S8192 .f32 :=
  Host.reduceAdd (Host.absf (extractStridedSlice S8192x4095 ![0, 1] x slices_S8192x4096_S8192x4095_0_1))
    (constant (F := Ideal) S_ .f32 0x00000000#32) reducesTo_S8192x4095_S8192_d1 h_S_

/-- The centre vector at row i is column 0 of row i. -/
theorem ctrVec_apply (x : FVec Ideal S8192x4096 .f32) (i : Fin 8192) :
    ctrVec x (ix1 i) = Cert.Spec.ctr x i := by
  unfold ctrVec Cert.Spec.ctr
  refine (shapeCast_apply _ _ (ix1 i) (ix2 i (0 : Fin 1)) ?_).trans ?_
  · rw [Shape.rowMajor_val_one, Shape.rowMajor_val_two]
    show i.val * 1 + 0 = i.val
    omega
  · refine extractStridedSlice_apply _ x _ _ (ix2 i (0 : Fin 4096)) fun a => ?_
    match a with
    | ⟨0, _⟩ => show i.val = 0 + i.val; omega
    | ⟨1, _⟩ => show 0 = 0 + 0; rfl

theorem reduces_S8192x4095_S8192_d1 : S8192x4095.Reduces [1] S8192 := by decide

/-- The radius vector at row i is the sum of the absolute values of columns 1 … 4095 of row i. -/
theorem radVec_apply (x : FVec Ideal S8192x4096 .f32) (i : Fin 8192) :
    radVec x (ix1 i) = Cert.Spec.rad x i := by
  unfold radVec Cert.Spec.rad
  rw [hostReduceAdd_apply, Ideal.hostReduceAdd_single _ reduces_S8192x4095_S8192_d1]
  show Ideal.ofBits .f32 0x00000000#32 + _ = _
  rw [Ideal.ofBits_zero_f32, zero_add]
  show ∑ k : Fin 4095, _ = _
  refine Finset.sum_congr rfl fun k _ => ?_
  show max (extractStridedSlice S8192x4095 ![0, 1] x slices_S8192x4096_S8192x4095_0_1 _) (-(extractStridedSlice S8192x4095 ![0, 1] x slices_S8192x4096_S8192x4095_0_1 _)) = _
  have e : extractStridedSlice S8192x4095 ![0, 1] x slices_S8192x4096_S8192x4095_0_1
      (reduces_S8192x4095_S8192_d1.lift (ix1 i) k) = x (ix2 i (⟨1 + k.val, by omega⟩ : Fin 4096)) := by
    refine extractStridedSlice_apply _ x _ _ _ fun a => ?_
    match a with
    | ⟨0, _⟩ => show i.val = 0 + i.val; omega
    | ⟨1, _⟩ => show 1 + k.val = 1 + k.val; rfl
  rw [e]

/-- The fresh coefficients as the reference computes them from the centre and radius vectors. -/
def epsOf (v1 v4 lam : FVec Ideal S8192 .f32) : FVec Ideal S8192 .f32 :=
  let v5 : FVec Ideal S8192 .f32 := subf v1 v4
  let v6 : FVec Ideal S8192 .f32 := addf v1 v4
  let v7 : FVec Ideal S8192 .f32 := broadcastInDim S8192 ![] bcast_S_S8192 (constant (F := Ideal) S_ .f32 0x00000000#32)
  let v8 : IVec S8192 1 := cmpf .ole v6 v7
  let v9 : IVec S8192 1 := noti v8
  let v10 : FVec Ideal S8192 .f32 := broadcastInDim S8192 ![] bcast_S_S8192 (constant (F := Ideal) S_ .f32 0x00000000#32)
  let v11 : IVec S8192 1 := cmpf .olt v5 v10
  let v12 : IVec S8192 1 := andi v9 v11
  let v13 : FVec Ideal S8192 .f32 := broadcastInDim S8192 ![] bcast_S_S8192 (constant (F := Ideal) S_ .f32 0x3F800000#32)
  let v14 : FVec Ideal S8192 .f32 := subf v6 v13
  let v15 : FVec Ideal S8192 .f32 := Host.divf v6 v14
  let v16 : IVec S8192 1 := cmpf .oge lam v15
  let v17 : FVec Ideal S8192 .f32 := Host.negf v5
  let v18 : FVec Ideal S8192 .f32 := mulf v17 lam
  let v19 : FVec Ideal S8192 .f32 := broadcastInDim S8192 ![] bcast_S_S8192 (constant (F := Ideal) S_ .f32 0x3F000000#32)
  let v20 : FVec Ideal S8192 .f32 := mulf v18 v19
  let v21 : FVec Ideal S8192 .f32 := broadcastInDim S8192 ![] bcast_S_S8192 (constant (F := Ideal) S_ .f32 0x3F800000#32)
  let v22 : FVec Ideal S8192 .f32 := subf v21 lam
  let v23 : FVec Ideal S8192 .f32 := mulf v6 v22
  let v24 : FVec Ideal S8192 .f32 := select v16 v20 v23
  select v12 v24 (broadcastInDim S8192 ![] bcast_S_S8192 (id (constant (F := Ideal) S_ .f32 0x00000000#32)))

/-- The scales as the reference computes them from the centre and radius vectors. -/
def sclOf (v1 v4 lam : FVec Ideal S8192 .f32) : FVec Ideal S8192 .f32 :=
  let v5 : FVec Ideal S8192 .f32 := subf v1 v4
  let v6 : FVec Ideal S8192 .f32 := addf v1 v4
  let v7 : FVec Ideal S8192 .f32 := broadcastInDim S8192 ![] bcast_S_S8192 (constant (F := Ideal) S_ .f32 0x00000000#32)
  let v8 : IVec S8192 1 := cmpf .ole v6 v7
  let v9 : IVec S8192 1 := noti v8
  let v10 : FVec Ideal S8192 .f32 := broadcastInDim S8192 ![] bcast_S_S8192 (constant (F := Ideal) S_ .f32 0x00000000#32)
  let v11 : IVec S8192 1 := cmpf .olt v5 v10
  let v12 : IVec S8192 1 := andi v9 v11
  let v26 : FVec Ideal S8192 .f32 := select v12 lam (broadcastInDim S8192 ![] bcast_S_S8192 (id (constant (F := Ideal) S_ .f32 0x3F800000#32)))
  select v8 (broadcastInDim S8192 ![] bcast_S_S8192 (id (constant (F := Ideal) S_ .f32 0x00000000#32))) v26

theorem refEps_eq (x : FVec Ideal S8192x4096 .f32) (lam : FVec Ideal S8192 .f32) :
    refEps x lam = epsOf (ctrVec x) (radVec x) lam := rfl

theorem refScale_eq (x : FVec Ideal S8192x4096 .f32) (lam : FVec Ideal S8192 .f32) :
    refScale x lam = sclOf (ctrVec x) (radVec x) lam := rfl

/-- On one-bit words the complement is the exclusive or with one. -/
theorem not_eq_xor_one (b : BitVec 1) : ~~~b = b ^^^ 1#1 := by revert b; decide

/-- At each row the reference's fresh coefficient is the specification's, of that row's centre, radius and parameter. -/
theorem epsOf_apply (v1 v4 lam : FVec Ideal S8192 .f32) (j : S8192.Idx) :
    epsOf v1 v4 lam j = Cert.Spec.newEps (v1 j) (v4 j) (lam j) := by
  show Scalar.select (IntOp.andi (~~~(Ideal.cmp .ole (v1 j + v4 j) Cert.Spec.zero)) (Ideal.cmp .olt (v1 j - v4 j) Cert.Spec.zero))
      (Scalar.select (Ideal.cmp .oge (lam j) (Ideal.div (v1 j + v4 j) (v1 j + v4 j - Cert.Spec.one)))
        (-(v1 j - v4 j) * lam j * Cert.Spec.half) ((v1 j + v4 j) * (Cert.Spec.one - lam j)))
      Cert.Spec.zero = _
  unfold Cert.Spec.newEps Cert.Spec.crossing Cert.Spec.dead Cert.Spec.lo Cert.Spec.hi
  rw [not_eq_xor_one, show Cert.Spec.zero - (v1 j - v4 j) = -(v1 j - v4 j) by
    show Ideal.ofBits .f32 0x00000000#32 - _ = _; rw [Ideal.ofBits_zero_f32, zero_sub]]
  rfl

/-- At each row the reference's scale is the specification's. -/
theorem sclOf_apply (v1 v4 lam : FVec Ideal S8192 .f32) (j : S8192.Idx) :
    sclOf v1 v4 lam j = Cert.Spec.scale (v1 j) (v4 j) (lam j) := by
  show Scalar.select (Ideal.cmp .ole (v1 j + v4 j) Cert.Spec.zero) Cert.Spec.zero
      (Scalar.select (IntOp.andi (~~~(Ideal.cmp .ole (v1 j + v4 j) Cert.Spec.zero)) (Ideal.cmp .olt (v1 j - v4 j) Cert.Spec.zero))
        (lam j) Cert.Spec.one) = _
  unfold Cert.Spec.scale Cert.Spec.crossing Cert.Spec.dead Cert.Spec.lo Cert.Spec.hi
  rw [not_eq_xor_one]
  rfl

/-- Row i's fresh coefficient, as the reference computes it, is the specification's. -/
theorem refEps_apply (x : FVec Ideal S8192x4096 .f32) (lam : FVec Ideal S8192 .f32) (i : Fin 8192) :
    refEps x lam (ix1 i) = Cert.Spec.eps x lam i := by
  rw [refEps_eq, epsOf_apply, ctrVec_apply, radVec_apply]; rfl

/-- Row i's scale, as the reference computes it, is the specification's. -/
theorem refScale_apply (x : FVec Ideal S8192x4096 .f32) (lam : FVec Ideal S8192 .f32) (i : Fin 8192) :
    refScale x lam (ix1 i) = Cert.Spec.scl x lam i := by
  rw [refScale_eq, sclOf_apply, ctrVec_apply, radVec_apply]; rfl

/-! ## A left fold of pointwise overwrites, read at an index -/

section Fold
variable {ι κ α : Type} [DecidableEq ι]

/-- A fold of overwrites none of which lands at the index leaves the index's value. -/
theorem foldl_overwrite_of_forall_ne (f : α → α → α) (g : κ → ι) (u : κ → α) (i' : ι) :
    ∀ (l : List κ) (x : ι → α), (∀ n ∈ l, g n ≠ i') →
      (l.foldl (fun r n => fun k => if k = g n then f (r (g n)) (u n) else r k) x) i' = x i'
  | [], x, _ => rfl
  | a :: l, x, h => by
      rw [List.foldl_cons, foldl_overwrite_of_forall_ne f g u i' l _ (fun n hn => h n (List.mem_cons_of_mem _ hn))]
      exact if_neg (fun e => h a List.mem_cons_self e.symm)

/-- A fold of overwrites at pairwise different places, one of which is the index, combines the index's value with
    that one update. -/
theorem foldl_overwrite_of_mem (f : α → α → α) (g : κ → ι) (hg : Function.Injective g) (u : κ → α) (i' : ι) (n₀ : κ)
    (h0 : g n₀ = i') :
    ∀ (l : List κ) (x : ι → α), l.Nodup → n₀ ∈ l →
      (l.foldl (fun r n => fun k => if k = g n then f (r (g n)) (u n) else r k) x) i' = f (x i') (u n₀)
  | [], x, _, hm => absurd hm List.not_mem_nil
  | a :: l, x, hnd, hm => by
      rw [List.foldl_cons]
      have hnd' := List.nodup_cons.mp hnd
      rcases List.mem_cons.mp hm with e | hm'
      · subst e
        rw [foldl_overwrite_of_forall_ne f g u i' l _ (fun n hn e => hnd'.1 (by
          have : n = n₀ := hg (e.trans h0.symm)
          rwa [this] at hn))]
        subst h0
        exact if_pos rfl
      · rw [foldl_overwrite_of_mem f g hg u i' n₀ h0 l _ hnd'.2 hm']
        have hne : ¬ i' = g a := fun e => hnd'.1 (by
          have : a = n₀ := hg (e.symm.trans h0.symm)
          rwa [this])
        show f (if i' = g a then _ else x i') (u n₀) = _
        rw [if_neg hne]

end Fold

/-! ## The scatter at the one column index 0 -/

/-- Where update j lands: row j, column 0. -/
def land (j : S8192.Idx) : S8192x4096.Idx := ix2 (⟨(j 0).val, (j 0).isLt⟩ : Fin 8192) (0 : Fin 4096)

theorem land_injective : Function.Injective land := by
  intro j j' e
  have h := congrArg (fun t : S8192x4096.Idx => (t 0).val) e
  funext a
  match a with
  | ⟨0, _⟩ => exact Fin.ext h

/-- With every scatter index zero, update j lands at row j, column 0. -/
theorem resultIdx_land (idx : IVec S1 32) (hidx : ∀ k, idx k = 0#32) (j : S8192.Idx) :
    scatter_S8192x4096_S1_S8192_0_1_1_0.resultIdx? j idx = some (land j) := by
  have hs0 : scatter_S8192x4096_S1_S8192_0_1_1_0.start j idx (0 : Fin 2) = 0 := by
    unfold ScatterDims.start; rw [dif_neg (by decide)]
  have hw0 : scatter_S8192x4096_S1_S8192_0_1_1_0.window j (0 : Fin 2) = (j 0).val := by
    unfold ScatterDims.window; rw [dif_pos (by decide)]; rfl
  have hs1 : scatter_S8192x4096_S1_S8192_0_1_1_0.start j idx (1 : Fin 2) = 0 := by
    unfold ScatterDims.start; rw [dif_pos (by decide), hidx]; rfl
  have hw1 : scatter_S8192x4096_S1_S8192_0_1_1_0.window j (1 : Fin 2) = 0 := by
    unfold ScatterDims.window; rw [dif_neg (by decide)]
  have hj : (j 0).val < 8192 := (j 0).isLt
  have H : ∀ a, 0 ≤ scatter_S8192x4096_S1_S8192_0_1_1_0.start j idx a + scatter_S8192x4096_S1_S8192_0_1_1_0.window j a
      ∧ scatter_S8192x4096_S1_S8192_0_1_1_0.start j idx a + scatter_S8192x4096_S1_S8192_0_1_1_0.window j a < S8192x4096.size a := by
    intro a
    match a with
    | ⟨0, _⟩ =>
      show 0 ≤ scatter_S8192x4096_S1_S8192_0_1_1_0.start j idx (0 : Fin 2) + scatter_S8192x4096_S1_S8192_0_1_1_0.window j (0 : Fin 2)
        ∧ scatter_S8192x4096_S1_S8192_0_1_1_0.start j idx (0 : Fin 2) + scatter_S8192x4096_S1_S8192_0_1_1_0.window j (0 : Fin 2) < (8192 : ℕ)
      rw [hs0, hw0]; omega
    | ⟨1, _⟩ =>
      show 0 ≤ scatter_S8192x4096_S1_S8192_0_1_1_0.start j idx (1 : Fin 2) + scatter_S8192x4096_S1_S8192_0_1_1_0.window j (1 : Fin 2)
        ∧ scatter_S8192x4096_S1_S8192_0_1_1_0.start j idx (1 : Fin 2) + scatter_S8192x4096_S1_S8192_0_1_1_0.window j (1 : Fin 2) < (4096 : ℕ)
      rw [hs1, hw1]; omega
  unfold ScatterDims.resultIdx?
  rw [dif_pos H]
  congr 1
  funext a
  match a with
  | ⟨0, _⟩ =>
    refine Fin.ext ?_
    show (scatter_S8192x4096_S1_S8192_0_1_1_0.start j idx (0 : Fin 2) + scatter_S8192x4096_S1_S8192_0_1_1_0.window j (0 : Fin 2)).toNat = (j 0).val
    rw [hs0, hw0]; omega
  | ⟨1, _⟩ =>
    refine Fin.ext ?_
    show (scatter_S8192x4096_S1_S8192_0_1_1_0.start j idx (1 : Fin 2) + scatter_S8192x4096_S1_S8192_0_1_1_0.window j (1 : Fin 2)).toNat = 0
    rw [hs1, hw1]; rfl

/-- The scatter as a fold of overwrites at the landing places. -/
theorem scatter_eq_foldl (y : FVec Ideal S8192x4096 .f32) (idx : IVec S1 32) (hidx : ∀ k, idx k = 0#32)
    (upd : FVec Ideal S8192 .f32) :
    Host.scatter scatter_S8192x4096_S1_S8192_0_1_1_0 FloatOps.addf y idx upd
      = (List.finRange S8192.numel).foldl (fun r n => fun k =>
          if k = land (S8192.rowMajor.symm n) then r (land (S8192.rowMajor.symm n)) + upd (S8192.rowMajor.symm n) else r k) y := by
  unfold Host.scatter
  refine congrArg (fun st => List.foldl st y (List.finRange S8192.numel)) ?_
  funext r n
  rw [resultIdx_land idx hidx]
  rfl

/-- The scatter read at row i, column q: the update is added in column 0 and nowhere else. -/
theorem scatter_col0_apply (y : FVec Ideal S8192x4096 .f32) (idx : IVec S1 32) (hidx : ∀ k, idx k = 0#32)
    (upd : FVec Ideal S8192 .f32) (i : Fin 8192) (q : Fin 4096) :
    Host.scatter scatter_S8192x4096_S1_S8192_0_1_1_0 FloatOps.addf y idx upd (ix2 i q)
      = if q.val = 0 then y (ix2 i q) + upd (ix1 i) else y (ix2 i q) := by
  rw [scatter_eq_foldl y idx hidx]
  by_cases hq : q.val = 0
  · rw [if_pos hq]
    obtain rfl : q = (0 : Fin 4096) := Fin.ext hq
    have h0 : land (S8192.rowMajor.symm (S8192.rowMajor (ix1 i))) = ix2 i (0 : Fin 4096) := by
      rw [Equiv.symm_apply_apply]; rfl
    have := foldl_overwrite_of_mem (fun a b : EReal => a + b) (fun n => land (S8192.rowMajor.symm n))
      (fun n n' e => S8192.rowMajor.symm.injective (land_injective e)) (fun n => upd (S8192.rowMajor.symm n))
      (ix2 i (0 : Fin 4096)) (S8192.rowMajor (ix1 i)) h0 (List.finRange S8192.numel) y (List.nodup_finRange _) (List.mem_finRange _)
    rw [Equiv.symm_apply_apply] at this
    exact this
  · rw [if_neg hq]
    exact foldl_overwrite_of_forall_ne (fun a b : EReal => a + b) (fun n => land (S8192.rowMajor.symm n))
      (fun n => upd (S8192.rowMajor.symm n)) (ix2 i q) (List.finRange S8192.numel) y (fun n _ e => hq (by
        have := congrArg (fun t : S8192x4096.Idx => (t 1).val) e
        exact this.symm))

/-! ## The relaxed rows, the diagonal matrix, and the two side by side -/

/-- The relaxed rows at row i, column q: the row scaled, and in column 0 the fresh coefficient added. -/
theorem refMain_apply (x : FVec Ideal S8192x4096 .f32) (lam : FVec Ideal S8192 .f32) (i : Fin 8192) (q : Fin 4096) :
    refMain x lam (ix2 i q)
      = if q.val = 0 then x (ix2 i q) * Cert.Spec.scl x lam i + Cert.Spec.eps x lam i
        else x (ix2 i q) * Cert.Spec.scl x lam i := by
  unfold refMain
  dsimp only
  rw [scatter_col0_apply _ (broadcastInDim S1 ![] bcast_S_S1 (constantI S_ 32 0#32)) (fun _ => rfl), refEps_apply, mulf_apply]
  have hb : broadcastInDim S8192x4096 ![0, 1] bcast_S8192x1_S8192x4096_0_1
      (broadcastInDim S8192x1 ![0] bcast_S8192_S8192x1_0 (refScale x lam)) (ix2 i q) = Cert.Spec.scl x lam i := by
    refine (broadcastInDim_apply _ _ _ (ix2 i q) (ix2 i (0 : Fin 1)) fun a => ?_).trans ?_
    · match a with
      | ⟨0, _⟩ => show i.val = if (8192 : ℕ) = 1 then 0 else i.val; rw [if_neg (by decide)]
      | ⟨1, _⟩ => show 0 = if (1 : ℕ) = 1 then 0 else q.val; rw [if_pos rfl]
    · refine (broadcastInDim_apply _ _ _ (ix2 i (0 : Fin 1)) (ix1 i) fun a => ?_).trans (refScale_apply x lam i)
      match a with
      | ⟨0, _⟩ => show i.val = if (8192 : ℕ) = 1 then 0 else i.val; rw [if_neg (by decide)]
  rw [hb]

/-- Two 32-bit words of numbers below 8192 are equal exactly when the numbers are. -/
theorem ofNat32_eq_iff (a b : ℕ) (ha : a < 8192) (hb : b < 8192) : BitVec.ofNat 32 a = BitVec.ofNat 32 b ↔ a = b := by
  constructor
  · intro e
    have := congrArg BitVec.toNat e
    rw [BitVec.toNat_ofNat, BitVec.toNat_ofNat, Nat.mod_eq_of_lt (by omega), Nat.mod_eq_of_lt (by omega)] at this
    exact this
  · intro e; rw [e]

/-- The diagonal matrix at row i, column k: the row's fresh coefficient on the diagonal, zero off it. -/
theorem refDiag_apply (x : FVec Ideal S8192x4096 .f32) (lam : FVec Ideal S8192 .f32) (i k : Fin 8192) :
    refDiag x lam (ix2 i k) = if k.val = i.val then Cert.Spec.eps x lam i else Cert.Spec.zero := by
  unfold refDiag
  dsimp only
  rw [select_apply]
  have hw : broadcastInDim S8192x8192 ![0, 1] bcast_S8192x1_S8192x8192_0_1
      (broadcastInDim S8192x1 ![0] bcast_S8192_S8192x1_0
        (pad S8192 ![0] ![0] ![0] (refEps x lam) (constant (F := Ideal) S_ .f32 0x00000000#32) pads_S8192_S8192_000 h_S_))
      (ix2 i k) = Cert.Spec.eps x lam i := by
    refine (broadcastInDim_apply _ _ _ (ix2 i k) (ix2 i (0 : Fin 1)) fun a => ?_).trans ?_
    · match a with
      | ⟨0, _⟩ => show i.val = if (8192 : ℕ) = 1 then 0 else i.val; rw [if_neg (by decide)]
      | ⟨1, _⟩ => show 0 = if (1 : ℕ) = 1 then 0 else k.val; rw [if_pos rfl]
    · refine (broadcastInDim_apply _ _ _ (ix2 i (0 : Fin 1)) (ix1 i) fun a => ?_).trans ?_
      · match a with
        | ⟨0, _⟩ => show i.val = if (8192 : ℕ) = 1 then 0 else i.val; rw [if_neg (by decide)]
      · refine (pad_apply_of_inside _ _ _ _ _ _ _ (ix1 i) (ix1 i) fun a => ?_).trans (refEps_apply x lam i)
        match a with
        | ⟨0, _⟩ => show i.val = 0 + i.val * (0 + 1); omega
  rw [hw]
  show Scalar.select (IntOp.cmpi .eq (IntOp.addi (BitVec.ofNat 32 i.val) 0#32) (BitVec.ofNat 32 k.val)) _ Cert.Spec.zero = _
  have ha : IntOp.addi (BitVec.ofNat 32 i.val) 0#32 = BitVec.ofNat 32 i.val := by
    show BitVec.ofNat 32 i.val + 0#32 = _; rw [BitVec.add_zero]
  rw [ha]
  by_cases hki : k.val = i.val
  · rw [if_pos hki, hki]
    show Scalar.select (BitVec.ofBool (BitVec.ofNat 32 i.val == BitVec.ofNat 32 i.val)) _ _ = _
    rw [beq_self_eq_true]; rfl
  · rw [if_neg hki]
    have hne : ¬ BitVec.ofNat 32 i.val = BitVec.ofNat 32 k.val := fun e =>
      hki ((ofNat32_eq_iff _ _ i.isLt k.isLt).mp e).symm
    show Scalar.select (BitVec.ofBool (BitVec.ofNat 32 i.val == BitVec.ofNat 32 k.val)) _ _ = _
    rw [beq_eq_false_iff_ne.mpr hne]; rfl

/-- The reference's result is the specification's array. -/
theorem refTerm_eq (x : FVec Ideal S8192x4096 .f32) (lam : FVec Ideal S8192 .f32) :
    refTerm x lam = Cert.Spec.G x lam := by
  funext j
  obtain ⟨p, q, rfl⟩ : ∃ (p : Fin 8192) (q : Fin 12288), j = ix2 p q := ⟨j 0, j 1, eq_ix2 j⟩
  show refTerm x lam (ix2 p q) = Cert.Spec.out x lam p q
  unfold refTerm Cert.Spec.out
  by_cases h1 : q.val < 4096
  · rw [concatenate_pair_apply_left (t := S8192x12288) (s₁ := S8192x4096) (s₂ := S8192x8192) 1 (refMain x lam) (refDiag x lam)
      concatenates_S8192x4096_S8192x8192_S8192x12288_d1 (ix2 p q) rfl (ix2 p (⟨q.val, h1⟩ : Fin 4096))
      (fun b => match b with
        | ⟨0, _⟩ => rfl
        | ⟨1, _⟩ => rfl), refMain_apply]
    by_cases h0 : q.val = 0
    · rw [dif_pos h0, if_pos h0]
      have : (⟨q.val, h1⟩ : Fin 4096) = (0 : Fin 4096) := Fin.ext h0
      rw [this]; rfl
    · rw [dif_neg h0, dif_pos h1, if_neg h0]
  · have hq : q.val - 4096 < 8192 := by have := q.isLt; omega
    have hi : ∀ b : Fin S8192x8192.rank, b.cast (rfl : S8192x8192.rank = S8192x12288.rank) ≠ (1 : Fin S8192x12288.rank) →
        ((ix2 p (⟨q.val - 4096, hq⟩ : Fin 8192) : S8192x8192.Idx) b).val
          = ((ix2 p q : S8192x12288.Idx) (b.cast (rfl : S8192x8192.rank = S8192x12288.rank))).val := by
      intro b hb
      have hb0 : b.val = 0 := by
        have h2 : b.val < 2 := b.isLt
        have h1' : b.val ≠ 1 := fun e => hb (Fin.ext e)
        omega
      obtain rfl : b = (⟨0, by decide⟩ : Fin S8192x8192.rank) := Fin.ext hb0
      rfl
    rw [concatenate_pair_apply_right (t := S8192x12288) (s₁ := S8192x4096) (s₂ := S8192x8192) 1 (refMain x lam) (refDiag x lam)
      concatenates_S8192x4096_S8192x8192_S8192x12288_d1 (ix2 p q) rfl rfl (ix2 p (⟨q.val - 4096, hq⟩ : Fin 8192)) hi
      (by show q.val - 4096 + 4096 = q.val; omega), refDiag_apply]
    rw [dif_neg (by omega), dif_neg h1]

end Cert.RefSide

end
-- ==== Proof.lean ====
/-
  The certificate of the ReLU zonotope relaxation kernel against its jnp reference.

  Both programs map a matrix of 8192 affine forms (column 0 the centre, columns 1 … 4095 the error coefficients) and
  a vector of 8192 slope parameters to the relaxed forms (8192 × 4096) with, to their right, the 8192 × 8192
  diagonal matrix of the fresh error coefficients (`Proof/Spec.lean`: `Cert.Spec.G`). The kernel works on blocks of
  128 rows, filling each output block by three stores (relaxed rows, zeros, the diagonal tile over the zeros); the
  reference works on whole arrays, adding the fresh coefficient into column 0 by a scatter-add and building the
  diagonal matrix by a select over two iotas. On the extended reals every operation of the two is the same exact
  operation row by row (the reference's negation is the kernel's `0 - ·`, its sum over a row the kernel's lane
  sum), so both results are `G` of the arguments, with no appeal to finiteness.

  * `frame_Kernel`, `frame_KernelIdeal`: the body's run at any float instance (`Proof/K/Body.lean`,
    `Proof/KI/Body.lean`) under the pipeline's launch theorem.
  * `frame_ReferenceIdeal`: the reference's run with the result dropped (`Proof/RefRun.lean`).
  * `preserves_Kernel_KernelIdeal`: the ideal pass rewrote nothing.
  * `algebraic_KernelIdeal_ReferenceIdeal`: the kernel's result array is `G` (`Proof/KI/Value.lean`: each output
    block is the block of `G` its point covers), and the reference's result term is `G` (`Proof/RefValue.lean`).
-/
import proofs.«123481_j43525198577802_1_alg».proof.Defs
import proofs.«123481_j43525198577802_1_alg».proof.Proof.Gen.Kernel
import proofs.«123481_j43525198577802_1_alg».proof.Proof.Gen.KernelIdeal
import proofs.«123481_j43525198577802_1_alg».proof.Proof.Gen.ReferenceIdeal
import proofs.«123481_j43525198577802_1_alg».proof.Proof.Gen.Pre_finite_inputs
import proofs.«123481_j43525198577802_1_alg».proof.Proof.K.Body
import proofs.«123481_j43525198577802_1_alg».proof.Proof.KI.Value
import proofs.«123481_j43525198577802_1_alg».proof.Proof.RefRun
import proofs.«123481_j43525198577802_1_alg».proof.Proof.RefValue
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Proof.K.frame m ρ

theorem frame_pi : Cert.frame_KernelIdeal (hKernelIdeal := Cert.KernelIdeal.Gen.facts) (hPre_finite_inputs := Cert.Pre_finite_inputs.Gen.facts) :=
  fun m ρ _ => Cert.Proof.KI.frame m ρ

/-- The reference's run ends at `G` of its arguments, which it leaves unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v34)
            = Cert.Spec.G (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run Cert.ReferenceIdeal.defs _ _).mono
    (fun _ h c => ⟨(h c).1.trans (Cert.RefSide.refTerm_eq _ _), (h c).2⟩) (Cert.RefSide.run_term m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (ref_run m ρ)

theorem preserves : Cert.preserves_Kernel_KernelIdeal := trivial

/-- From memories agreeing on the arguments both programs end at `G` of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Proof.KI.run_value m ρ, ?_⟩
  refine (θ_run Cert.ReferenceIdeal.defs _ _).mono (fun _ h c => ⟨(h c).1.trans ?_, (h c).2⟩) (ref_run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
